-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x256x224x224 : Shape := ⟨4, ![3, 256, 224, 224]⟩
abbrev S256x128 : Shape := ⟨2, ![256, 128]⟩
abbrev S_ : Shape := ⟨0, ![]⟩

class Facts : Prop where
  bcast_S_S3x256x224x224 : S_.BroadcastsInDim S3x256x224x224 (![] : Fin 0 → Fin S3x256x224x224.rank)
  reducesTo_S3x256x224x224_S_d0_1_2_3 : S3x256x224x224.ReducesTo [0, 1, 2, 3] S_
  h_S_ : 0 < S_.numel

variable [Facts]

def fn {F : FTy → Type} [FloatOps F] (main_arg0 : FVec F S3x256x224x224 .f32) (main_arg1 : IVec S256x128 32) : IVec S_ 1 :=
  let main_v0 : FVec F S3x256x224x224 .f32 := Host.absf main_arg0
  let main_cst : FVec F S_ .f32 := constant S_ .f32 0x7F800000#32
  let main_v1 : FVec F S3x256x224x224 .f32 := broadcastInDim S3x256x224x224 ![] bcast_S_S3x256x224x224 main_cst
  let main_v2 : IVec S3x256x224x224 1 := cmpf .olt main_v0 main_v1
  let main_c : IVec S_ 1 := constantI S_ 1 1#1
  let main_v3 : IVec S_ 1 := (fun x v => Host.reduce IntOp.andi x v reducesTo_S3x256x224x224_S_d0_1_2_3 h_S_) main_v2 main_c
  main_v3
-- ==== Kernel.lean ====
abbrev S3x256x224x224 : Shape := ⟨4, ![3, 256, 224, 224]⟩
abbrev S256x128 : Shape := ⟨2, ![256, 128]⟩
abbrev S_ : Shape := ⟨0, ![]⟩
abbrev S256 : Shape := ⟨1, ![256]⟩
abbrev S256x1 : Shape := ⟨2, ![256, 1]⟩
abbrev S256x16x16 : Shape := ⟨3, ![256, 16, 16]⟩
abbrev S256x128x1 : Shape := ⟨3, ![256, 128, 1]⟩
abbrev S256x128x3 : Shape := ⟨3, ![256, 128, 3]⟩
abbrev S256x16x14x16 : Shape := ⟨4, ![256, 16, 14, 16]⟩
abbrev S256x224x16 : Shape := ⟨3, ![256, 224, 16]⟩
abbrev S256x224x16x14 : Shape := ⟨4, ![256, 224, 16, 14]⟩
abbrev S256x224x224 : Shape := ⟨3, ![256, 224, 224]⟩
abbrev S3x8x224x224 : Shape := ⟨4, ![3, 8, 224, 224]⟩
abbrev S8x224x224 : Shape := ⟨3, ![8, 224, 224]⟩
abbrev S1x8x224x224 : Shape := ⟨4, ![1, 8, 224, 224]⟩

abbrev nBuf : Space → Nat
  | .hbm => 80
  | .vmem => 6
  | .smem => 0
  | _ => 0

abbrev bufTy : (tb : Table) → Fin (tcTables nBuf tb) → BufTy
  | .hbm, ⟨0, _⟩ => ⟨S3x256x224x224, .f32⟩
  | .hbm, ⟨1, _⟩ => ⟨S256x128, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S256x128, .i32⟩
  | .hbm, ⟨9, _⟩ => ⟨S256x128, .i32⟩
  | .hbm, ⟨10, _⟩ => ⟨S_, .i32⟩
  | .hbm, ⟨11, _⟩ => ⟨S256x128, .i32⟩
  | .hbm, ⟨12, _⟩ => ⟨S256x128, .i1⟩
  | .hbm, ⟨13, _⟩ => ⟨S_, .i32⟩
  | .hbm, ⟨14, _⟩ => ⟨S256x128, .i32⟩
  | .hbm, ⟨15, _⟩ => ⟨S256x128, .i1⟩
  | .hbm, ⟨16, _⟩ => ⟨S_, .i32⟩
  | .hbm, ⟨17, _⟩ => ⟨S_, .i1⟩
  | .hbm, ⟨18, _⟩ => ⟨S256x128, .i1⟩
  | .hbm, ⟨19, _⟩ => ⟨S256x128, .i1⟩
  | .hbm, ⟨20, _⟩ => ⟨S256x128, .i1⟩
  | .hbm, ⟨21, _⟩ => ⟨S256x128, .i32⟩
  | .hbm, ⟨22, _⟩ => ⟨S256x128, .i32⟩
  | .hbm, ⟨23, _⟩ => ⟨S256x128, .i32⟩
  | .hbm, ⟨24, _⟩ => ⟨S_, .i32⟩
  | .hbm, ⟨25, _⟩ => ⟨S_, .i32⟩
  | .hbm, ⟨26, _⟩ => ⟨S256x128, .i32⟩
  | .hbm, ⟨27, _⟩ => ⟨S256x128, .i32⟩
  | .hbm, ⟨28, _⟩ => ⟨S256x128, .i32⟩
  | .hbm, ⟨29, _⟩ => ⟨S_, .i32⟩
  | .hbm, ⟨30, _⟩ => ⟨S256x128, .i32⟩
  | .hbm, ⟨31, _⟩ => ⟨S256x128, .i1⟩
  | .hbm, ⟨32, _⟩ => ⟨S256x128, .i32⟩
  | .hbm, ⟨33, _⟩ => ⟨S256x128, .i32⟩
  | .hbm, ⟨34, _⟩ => ⟨S_, .i32⟩
  | .hbm, ⟨35, _⟩ => ⟨S256x128, .i32⟩
  | .hbm, ⟨36, _⟩ => ⟨S256x128, .i1⟩
  | .hbm, ⟨37, _⟩ => ⟨S256x128, .i1⟩
  | .hbm, ⟨38, _⟩ => ⟨S_, .i32⟩
  | .hbm, ⟨39, _⟩ => ⟨S256x128, .i32⟩
  | .hbm, ⟨40, _⟩ => ⟨S256x128, .i32⟩
  | .hbm, ⟨41, _⟩ => ⟨S256x128, .i32⟩
  | .hbm, ⟨42, _⟩ => ⟨S256, .i32⟩
  | .hbm, ⟨43, _⟩ => ⟨S256x1, .i32⟩
  | .hbm, ⟨44, _⟩ => ⟨S_, .f32⟩
  | .hbm, ⟨45, _⟩ => ⟨S256x16x16, .f32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S_, .i32⟩
  | .hbm, ⟨50, _⟩ => ⟨S256x1, .i32⟩
  | .hbm, ⟨51, _⟩ => ⟨S256x1, .i32⟩
  | .hbm, ⟨52, _⟩ => ⟨S256x1, .i32⟩
  | .hbm, ⟨53, _⟩ => ⟨S_, .i32⟩
  | .hbm, ⟨54, _⟩ => ⟨S256x128, .i32⟩
  | .hbm, ⟨55, _⟩ => ⟨S256x128, .i1⟩
  | .hbm, ⟨56, _⟩ => ⟨S_, .i32⟩
  | .hbm, ⟨57, _⟩ => ⟨S256x128, .i32⟩
  | .hbm, ⟨58, _⟩ => ⟨S256x128, .i32⟩
  | .hbm, ⟨59, _⟩ => ⟨S256x128, .i32⟩
  | .hbm, ⟨60, _⟩ => ⟨S_, .i32⟩
  | .hbm, ⟨61, _⟩ => ⟨S256x128, .i32⟩
  | .hbm, ⟨62, _⟩ => ⟨S256x128, .i1⟩
  | .hbm, ⟨63, _⟩ => ⟨S_, .i32⟩
  | .hbm, ⟨64, _⟩ => ⟨S256x128, .i32⟩
  | .hbm, ⟨65, _⟩ => ⟨S256x128, .i32⟩
  | .hbm, ⟨66, _⟩ => ⟨S256x128, .i32⟩
  | .hbm, ⟨67, _⟩ => ⟨S256x128, .i32⟩
  | .hbm, ⟨68, _⟩ => ⟨S256x128x1, .i32⟩
  | .hbm, ⟨69, _⟩ => ⟨S256x128x1, .i32⟩
  | .hbm, ⟨70, _⟩ => ⟨S256x128x1, .i32⟩
  | .hbm, ⟨71, _⟩ => ⟨S256x128x3, .i32⟩
  | .hbm, ⟨72, _⟩ => ⟨S_, .f32⟩
  | .hbm, ⟨73, _⟩ => ⟨S256x128, .f32⟩
  | .hbm, ⟨74, _⟩ => ⟨S256x16x16, .f32⟩
  | .hbm, ⟨75, _⟩ => ⟨S256x16x14x16, .f32⟩
  | .hbm, ⟨76, _⟩ => ⟨S256x224x16, .f32⟩
  | .hbm, ⟨77, _⟩ => ⟨S256x224x16x14, .f32⟩
  | .hbm, ⟨78, _⟩ => ⟨S256x224x224, .f32⟩
  | .hbm, ⟨79, _⟩ => ⟨S3x256x224x224, .f32⟩
  | .local _ .vmem, ⟨0, _⟩ => ⟨S3x8x224x224, .f32⟩
  | .local _ .vmem, ⟨1, _⟩ => ⟨S3x8x224x224, .f32⟩
  | .local _ .vmem, ⟨2, _⟩ => ⟨S8x224x224, .f32⟩
  | .local _ .vmem, ⟨3, _⟩ => ⟨S8x224x224, .f32⟩
  | .local _ .vmem, ⟨4, _⟩ => ⟨S3x8x224x224, .f32⟩
  | .local _ .vmem, ⟨5, _⟩ => ⟨S3x8x224x224, .f32⟩
  | _, _ => ⟨S3x256x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_c_1 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_c_3 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_5 : Ref sig .tc := ⟨.hbm, 60, rfl⟩
abbrev main_v15 : Ref sig .tc := ⟨.hbm, 61, rfl⟩
abbrev main_v16 : Ref sig .tc := ⟨.hbm, 62, rfl⟩
abbrev main_c_6 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_7 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S3x8x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x8x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x128 : S_.BroadcastsInDim S256x128 (![] : Fin 0 → Fin S256x128.rank)
  bcast_S256_S256x1_0 : S256.BroadcastsInDim S256x1 (![0] : Fin 1 → Fin S256x1.rank)
  bcast_S_S256x16x16 : S_.BroadcastsInDim S256x16x16 (![] : Fin 0 → Fin S256x16x16.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S256x128_S256x128x1_0_1 : S256x128.BroadcastsInDim S256x128x1 (![0, 1] : Fin 2 → Fin S256x128x1.rank)
  concatenates_S256x128x1_S256x128x1_S256x128x1_S256x128x3_d2 : Shape.Concatenates [S256x128x1, S256x128x1, S256x128x1] S256x128x3 2
  bcast_S256x16x16_S256x16x14x16_0_1_3 : S256x16x16.BroadcastsInDim S256x16x14x16 (![0, 1, 3] : Fin 3 → Fin S256x16x14x16.rank)
  shapeCasts_S256x16x14x16_S256x224x16 : S256x16x14x16.ShapeCasts S256x224x16
  bcast_S256x224x16_S256x224x16x14_0_1_2 : S256x224x16.BroadcastsInDim S256x224x16x14 (![0, 1, 2] : Fin 3 → Fin S256x224x16x14.rank)
  shapeCasts_S256x224x16x14_S256x224x224 : S256x224x16x14.ShapeCasts S256x224x224
  inb_S3x8x224x224_S3x8x224x224_0_0_0_0 : ∀ a, (![0, 0, 0, 0] : Fin 4 → Nat) a + S3x8x224x224.size a ≤ S3x8x224x224.size a
  h_S3x8x224x224 : 0 < S3x8x224x224.numel
  inb_S8x224x224_S8x224x224_0_0_0 : ∀ a, (![0, 0, 0] : Fin 3 → Nat) a + S8x224x224.size a ≤ S8x224x224.size a
  h_S8x224x224 : 0 < S8x224x224.numel
  shapeCasts_S8x224x224_S8x224x224 : S8x224x224.ShapeCasts S8x224x224
  shapeCasts_S8x224x224_S1x8x224x224 : S8x224x224.ShapeCasts S1x8x224x224
  broadcasts_S1x8x224x224_S3x8x224x224 : S1x8x224x224.Broadcasts S3x8x224x224
  scatter_S256x16x16_S256x128x3_S256x128_n_012_012_2_wf : ScatterDims.WF S256x16x16 S256x128x3 S256x128 [] [0, 1, 2] [0, 1, 2] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x224x224.size a ≤ S3x256x224x224.size a
  hwx0_0 : ∀ i : grid0.Coords, EltTy.bits .f32 = 32 ∨ (Rect.block (s := S3x256x224x224) S3x8x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x224x224.size a ≤ S256x224x224.size a
  hwx0_1 : ∀ i : grid0.Coords, EltTy.bits .f32 = 32 ∨ (Rect.block (s := S256x224x224) S8x224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x8x224x224.size a ≤ S3x256x224x224.size a
  hwx0_2 : ∀ i : grid0.Coords, EltTy.bits .f32 = 32 ∨ (Rect.block (s := S3x256x224x224) S3x8x224x224.size (cc0_transform_2 i) (hinb0_2 i)).WholeWords (EltTy.packing .f32)

variable [Facts₀]

def scatter_S256x16x16_S256x128x3_S256x128_n_012_012_2 : ScatterDims S256x16x16 S256x128x3 S256x128 where
  updateWindowDims := []
  insertedWindowDims := [0, 1, 2]
  scatterDimsToOperandDims := [0, 1, 2]
  indexVectorDim := 2
  wf := scatter_S256x16x16_S256x128x3_S256x128_n_012_012_2_wf

abbrev win0_0 : Pipeline.Window sig grid0 :=
  Pipeline.Window.ofSpec (Memref.whole main_arg0) S3x8x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8x224x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S3x8x224x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x256x224x224 : Shape := ⟨4, ![3, 256, 224, 224]⟩
abbrev S256x128 : Shape := ⟨2, ![256, 128]⟩
abbrev S_ : Shape := ⟨0, ![]⟩
abbrev S256 : Shape := ⟨1, ![256]⟩
abbrev S256x1 : Shape := ⟨2, ![256, 1]⟩
abbrev S256x16x16 : Shape := ⟨3, ![256, 16, 16]⟩
abbrev S256x128x1 : Shape := ⟨3, ![256, 128, 1]⟩
abbrev S256x128x3 : Shape := ⟨3, ![256, 128, 3]⟩
abbrev S256x16x14x16 : Shape := ⟨4, ![256, 16, 14, 16]⟩
abbrev S256x224x16 : Shape := ⟨3, ![256, 224, 16]⟩
abbrev S256x224x16x14 : Shape := ⟨4, ![256, 224, 16, 14]⟩
abbrev S256x224x224 : Shape := ⟨3, ![256, 224, 224]⟩
abbrev S1x256x224x224 : Shape := ⟨4, ![1, 256, 224, 224]⟩

abbrev nBuf : Space → Nat
  | .hbm => 82
  | .vmem => 0
  | .smem => 0
  | _ => 0

abbrev bufTy : (tb : Table) → Fin (tcTables nBuf tb) → BufTy
  | .hbm, ⟨0, _⟩ => ⟨S3x256x224x224, .f32⟩
  | .hbm, ⟨1, _⟩ => ⟨S256x128, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S256x128, .i32⟩
  | .hbm, ⟨9, _⟩ => ⟨S256x128, .i32⟩
  | .hbm, ⟨10, _⟩ => ⟨S_, .i32⟩
  | .hbm, ⟨11, _⟩ => ⟨S256x128, .i32⟩
  | .hbm, ⟨12, _⟩ => ⟨S256x128, .i1⟩
  | .hbm, ⟨13, _⟩ => ⟨S_, .i32⟩
  | .hbm, ⟨14, _⟩ => ⟨S256x128, .i32⟩
  | .hbm, ⟨15, _⟩ => ⟨S256x128, .i1⟩
  | .hbm, ⟨16, _⟩ => ⟨S_, .i32⟩
  | .hbm, ⟨17, _⟩ => ⟨S_, .i1⟩
  | .hbm, ⟨18, _⟩ => ⟨S256x128, .i1⟩
  | .hbm, ⟨19, _⟩ => ⟨S256x128, .i1⟩
  | .hbm, ⟨20, _⟩ => ⟨S256x128, .i1⟩
  | .hbm, ⟨21, _⟩ => ⟨S256x128, .i32⟩
  | .hbm, ⟨22, _⟩ => ⟨S256x128, .i32⟩
  | .hbm, ⟨23, _⟩ => ⟨S256x128, .i32⟩
  | .hbm, ⟨24, _⟩ => ⟨S_, .i32⟩
  | .hbm, ⟨25, _⟩ => ⟨S_, .i32⟩
  | .hbm, ⟨26, _⟩ => ⟨S256x128, .i32⟩
  | .hbm, ⟨27, _⟩ => ⟨S256x128, .i32⟩
  | .hbm, ⟨28, _⟩ => ⟨S256x128, .i32⟩
  | .hbm, ⟨29, _⟩ => ⟨S_, .i32⟩
  | .hbm, ⟨30, _⟩ => ⟨S256x128, .i32⟩
  | .hbm, ⟨31, _⟩ => ⟨S256x128, .i1⟩
  | .hbm, ⟨32, _⟩ => ⟨S256x128, .i32⟩
  | .hbm, ⟨33, _⟩ => ⟨S256x128, .i32⟩
  | .hbm, ⟨34, _⟩ => ⟨S_, .i32⟩
  | .hbm, ⟨35, _⟩ => ⟨S256x128, .i32⟩
  | .hbm, ⟨36, _⟩ => ⟨S256x128, .i1⟩
  | .hbm, ⟨37, _⟩ => ⟨S256x128, .i1⟩
  | .hbm, ⟨38, _⟩ => ⟨S_, .i32⟩
  | .hbm, ⟨39, _⟩ => ⟨S256x128, .i32⟩
  | .hbm, ⟨40, _⟩ => ⟨S256x128, .i32⟩
  | .hbm, ⟨41, _⟩ => ⟨S256x128, .i32⟩
  | .hbm, ⟨42, _⟩ => ⟨S256, .i32⟩
  | .hbm, ⟨43, _⟩ => ⟨S256x1, .i32⟩
  | .hbm, ⟨44, _⟩ => ⟨S_, .f32⟩
  | .hbm, ⟨45, _⟩ => ⟨S256x16x16, .f32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S_, .i32⟩
  | .hbm, ⟨50, _⟩ => ⟨S256x1, .i32⟩
  | .hbm, ⟨51, _⟩ => ⟨S256x1, .i32⟩
  | .hbm, ⟨52, _⟩ => ⟨S256x1, .i32⟩
  | .hbm, ⟨53, _⟩ => ⟨S_, .i32⟩
  | .hbm, ⟨54, _⟩ => ⟨S256x128, .i32⟩
  | .hbm, ⟨55, _⟩ => ⟨S256x128, .i1⟩
  | .hbm, ⟨56, _⟩ => ⟨S_, .i32⟩
  | .hbm, ⟨57, _⟩ => ⟨S256x128, .i32⟩
  | .hbm, ⟨58, _⟩ => ⟨S256x128, .i32⟩
  | .hbm, ⟨59, _⟩ => ⟨S256x128, .i32⟩
  | .hbm, ⟨60, _⟩ => ⟨S_, .i32⟩
  | .hbm, ⟨61, _⟩ => ⟨S256x128, .i32⟩
  | .hbm, ⟨62, _⟩ => ⟨S256x128, .i1⟩
  | .hbm, ⟨63, _⟩ => ⟨S_, .i32⟩
  | .hbm, ⟨64, _⟩ => ⟨S256x128, .i32⟩
  | .hbm, ⟨65, _⟩ => ⟨S256x128, .i32⟩
  | .hbm, ⟨66, _⟩ => ⟨S256x128, .i32⟩
  | .hbm, ⟨67, _⟩ => ⟨S256x128, .i32⟩
  | .hbm, ⟨68, _⟩ => ⟨S256x128x1, .i32⟩
  | .hbm, ⟨69, _⟩ => ⟨S256x128x1, .i32⟩
  | .hbm, ⟨70, _⟩ => ⟨S256x128x1, .i32⟩
  | .hbm, ⟨71, _⟩ => ⟨S256x128x3, .i32⟩
  | .hbm, ⟨72, _⟩ => ⟨S_, .f32⟩
  | .hbm, ⟨73, _⟩ => ⟨S256x128, .f32⟩
  | .hbm, ⟨74, _⟩ => ⟨S256x16x16, .f32⟩
  | .hbm, ⟨75, _⟩ => ⟨S256x16x14x16, .f32⟩
  | .hbm, ⟨76, _⟩ => ⟨S256x224x16, .f32⟩
  | .hbm, ⟨77, _⟩ => ⟨S256x224x16x14, .f32⟩
  | .hbm, ⟨78, _⟩ => ⟨S256x224x224, .f32⟩
  | .hbm, ⟨79, _⟩ => ⟨S1x256x224x224, .f32⟩
  | .hbm, ⟨80, _⟩ => ⟨S3x256x224x224, .f32⟩
  | .hbm, ⟨81, _⟩ => ⟨S3x256x224x224, .f32⟩
  | _, _ => ⟨S3x256x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_c_1 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_c_3 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_5 : Ref sig .tc := ⟨.hbm, 60, rfl⟩
abbrev main_v15 : Ref sig .tc := ⟨.hbm, 61, rfl⟩
abbrev main_v16 : Ref sig .tc := ⟨.hbm, 62, rfl⟩
abbrev main_c_6 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_7 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S256_S256x1_0 : S256.BroadcastsInDim S256x1 (![0] : Fin 1 → Fin S256x1.rank)
  bcast_S_S256x16x16 : S_.BroadcastsInDim S256x16x16 (![] : Fin 0 → Fin S256x16x16.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S256x128_S256x128x1_0_1 : S256x128.BroadcastsInDim S256x128x1 (![0, 1] : Fin 2 → Fin S256x128x1.rank)
  concatenates_S256x128x1_S256x128x1_S256x128x1_S256x128x3_d2 : Shape.Concatenates [S256x128x1, S256x128x1, S256x128x1] S256x128x3 2
  bcast_S256x16x16_S256x16x14x16_0_1_3 : S256x16x16.BroadcastsInDim S256x16x14x16 (![0, 1, 3] : Fin 3 → Fin S256x16x14x16.rank)
  shapeCasts_S256x16x14x16_S256x224x16 : S256x16x14x16.ShapeCasts S256x224x16
  bcast_S256x224x16_S256x224x16x14_0_1_2 : S256x224x16.BroadcastsInDim S256x224x16x14 (![0, 1, 2] : Fin 3 → Fin S256x224x16x14.rank)
  shapeCasts_S256x224x16x14_S256x224x224 : S256x224x16x14.ShapeCasts S256x224x224
  bcast_S256x224x224_S1x256x224x224_1_2_3 : S256x224x224.BroadcastsInDim S1x256x224x224 (![1, 2, 3] : Fin 3 → Fin S1x256x224x224.rank)
  bcast_S1x256x224x224_S3x256x224x224_0_1_2_3 : S1x256x224x224.BroadcastsInDim S3x256x224x224 (![0, 1, 2, 3] : Fin 4 → Fin S3x256x224x224.rank)
  scatter_S256x16x16_S256x128x3_S256x128_n_012_012_2_wf : ScatterDims.WF S256x16x16 S256x128x3 S256x128 [] [0, 1, 2] [0, 1, 2] 2

variable [Facts₀]

def scatter_S256x16x16_S256x128x3_S256x128_n_012_012_2 : ScatterDims S256x16x16 S256x128x3 S256x128 where
  updateWindowDims := []
  insertedWindowDims := [0, 1, 2]
  scatterDimsToOperandDims := [0, 1, 2]
  indexVectorDim := 2
  wf := scatter_S256x16x16_S256x128x3_S256x128_n_012_012_2_wf

class Facts : Prop extends Facts₀ where

variable [Facts]
-- ==== Proof.WordRegion.lean ====
/-
  The run of the masked-frames program: the host builds the pixel mask (an array over frame, row and column), and one
  pipelined region multiplies the frames array, eight frames at a time, by that mask, every channel by the same mask
  value. This module carries the program from its launch to its end: the host operations ahead of the region leave
  the two argument arrays as launched and the mask array at the fold of their results; at grid point t the region
  stages frames t*8 .. t*8+7 of the frames array (all three channels) and of the mask, the body stores the product of
  the two staged blocks, the mask block broadcast along the channel axis, and the stored block is written back to
  frames t*8 .. t*8+7 of the result. Stated at any reading of the floats.
-/
import proofs.«165895_j74818330296837_1_alg».proof.Proof.Gen.Kernel.Launch
import proofs.«165895_j74818330296837_1_alg».proof.Proof.Gen.Kernel.Skeleton
import proofs.«165895_j74818330296837_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## From the launch to the region -/

/-- What core c's buffers hold when the region is entered: the launch contents folded through the five stretches of
    host operations (the patch side length, the remainder, the side length again, the floored quotient, and the
    scatter and the two expansions that make the pixel mask). -/
abbrev atEntry (c : Dev nD) (b : Ref sig .tc) : Buf (Elt F) ((c : Thread nD τ).loc b) :=
  StableHlo.after (List.flatten [hostOps0, hostOps0_1, hostOps0_2, hostOps0_3, hostOps0_4]) (fun b => m (c, b)) b

theorem stretch0_determined : (hostOps0 : List (HloOp τ sig (Elt F))).Forall fun op => op.fresh = ∅ := by
  simp only [List.Forall]; repeat' constructor
theorem stretch1_determined : (hostOps0_1 : List (HloOp τ sig (Elt F))).Forall fun op => op.fresh = ∅ := by
  simp only [List.Forall]; repeat' constructor
theorem stretch2_determined : (hostOps0_2 : List (HloOp τ sig (Elt F))).Forall fun op => op.fresh = ∅ := by
  simp only [List.Forall]; repeat' constructor
theorem stretch3_determined : (hostOps0_3 : List (HloOp τ sig (Elt F))).Forall fun op => op.fresh = ∅ := by
  simp only [List.Forall]; repeat' constructor
theorem stretch4_determined : (hostOps0_4 : List (HloOp τ sig (Elt F))).Forall fun op => op.fresh = ∅ := by
  simp only [List.Forall]; repeat' constructor

/-- The program is its host stretches, then the region. -/
theorem to_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨stretch0_determined, stretch1_determined, stretch2_determined, stretch3_determined, stretch4_determined⟩)
    main_chain

/-- No host operation writes the frames array: the region finds it as launched. -/
theorem frames_at_entry (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes the patch indices: the region finds them as launched. -/
theorem indices_at_entry (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks a grid point sees -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The frames window's staging buffer holds frames t*8 .. t*8+7 when the body starts, whatever the proof data, as
    long as its array is the entry contents and the body leaves the block in place. -/
theorem frames_staged {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the mask window. -/
theorem mask_staged {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole frames block, and the whole mask block: the only rectangles the body touches. -/
abbrev wholeFrames : Rect S3x8x224x224 := Rect.unit (s := S3x8x224x224) ![0, 0, 0, 0] S3x8x224x224.size inb_S3x8x224x224_S3x8x224x224_0_0_0_0
abbrev wholeMask : Rect S8x224x224 := Rect.unit (s := S8x224x224) ![0, 0, 0] S8x224x224.size inb_S8x224x224_S8x224x224_0_0_0

/-- The result block after the body: its one store, of the product of the frames block and the mask block. -/
def product (x : Vec F S3x8x224x224 .f32) (k : Vec F S8x224x224 .f32) : Vec F S3x8x224x224 .f32 :=
  View.canon [⟨wholeFrames, k0_pay1 (View.ld x wholeFrames) (View.ld k wholeMask)⟩]

/-- That one store covers the result block. -/
theorem store_covers (p : Vec F S3x8x224x224 .f32) (y : S3x8x224x224.Idx) :
    ∃ pc ∈ ([⟨wholeFrames, p⟩] : List (View.Piece (Elt F) S3x8x224x224 .f32)), y ∈ pc.1.set :=
  View.cover_of_tiled [⟨wholeFrames, p⟩] S3x8x224x224.size (by rfl) y

set_option maxHeartbeats 1000000 in
/-- The body, on whole staging buffers holding a frames block x and a mask block k and a result buffer holding anything,
    ends with the inputs as they were and the result buffer at their product. -/
theorem body_triple (c : Dev nD) (E : Set ℕ) (i : grid0.Coords) (arg1 : Memref sig .tc .vmem S3x8x224x224 .f32) (harg1 : arg1.IsWhole)
    (arg2 : Memref sig .tc .vmem S8x224x224 .f32) (harg2 : arg2.IsWhole) (arg3 : Memref sig .tc .vmem S3x8x224x224 .f32) (harg3 : arg3.IsWhole)
    (x : Vec F S3x8x224x224 .f32) (k : Vec F S8x224x224 .f32) (K : PUnit → sProp 𝕄) :
    iprop(owns (c : Thread nD τ) arg1 fullShare x ∗ owns (c : Thread nD τ) arg2 fullShare k ∗ (∃ d, owns (c : Thread nD τ) arg3 fullShare d)
        ∗ (iprop(owns (c : Thread nD τ) arg1 fullShare x ∗ owns (c : Thread nD τ) arg2 fullShare k ∗ owns (c : Thread nD τ) arg3 fullShare (product x k)) -∗ K ⟨⟩))
      ⊢ wp frame (wpE (defs₀ (F := F)) Variants.none c none) E (cc0__mask_mul_kernel i arg1 harg1 arg2 harg2 arg3 harg3) K := by
  simp only [cc0__mask_mul_kernel_eq_skeleton]; unfold cc0__mask_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core c: the arrays as the region finds them; after the body at point t the two input buffers still hold their
    blocks and the result buffer their product; nothing else is used, nothing owed. -/
def pipe (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => product (blockAt m c 0 t) (blockAt m c 1 t)
  Φ _ := Pipeline.ΦA spec0 c
  q _ := fullShare
  owed _ := 0

theorem pipe_arrays (c : Dev nD) (w : Fin cfg0.W) : (pipe m 0 c).A w = atEntry m c (Pipeline.arrRef spec0 w) := by
  dsimp only [pipe]

theorem frames_left (c : Dev nD) (t : Fin cfg0.N) : (pipe m 0 c).after 0 t = blockAt m c 0 t := by dsimp only [pipe]
theorem mask_left (c : Dev nD) (t : Fin cfg0.N) : (pipe m 0 c).after 1 t = blockAt m c 1 t := by dsimp only [pipe]
theorem product_left (c : Dev nD) (t : Fin cfg0.N) :
    (pipe m 0 c).after 2 t = product (blockAt m c 0 t) (blockAt m c 1 t) := by dsimp only [pipe]

theorem frames_found (c : Dev nD) (t : Fin cfg0.N) (d) : (pipe m 0 c).before 0 t d = blockAt m c 0 t :=
  frames_staged m (pipe m 0 c) (pipe_arrays m c 0) (frames_left m c) t d
theorem mask_found (c : Dev nD) (t : Fin cfg0.N) (d) : (pipe m 0 c).before 1 t d = blockAt m c 1 t :=
  mask_staged m (pipe m 0 c) (pipe_arrays m c 1) (mask_left m c) t d

/-! ## The body at a grid point -/

/-- What the body is called with at point t, -/
def handed (c : Dev nD) (t : Fin cfg0.N) : sProp 𝕄 :=
  iprop((pipe m 0 c).Φ t.castSucc ∗ (pipe m 0 c).owesAt () t.castSucc
    ∗ (∃ d, owns (c : Thread nD τ) (st0_0 t) fullShare ((pipe m 0 c).before 0 t d))
    ∗ (∃ d, owns (c : Thread nD τ) (st0_1 t) fullShare ((pipe m 0 c).before 1 t d))
    ∗ (∃ d, owns (c : Thread nD τ) (st0_2 t) fullShare ((pipe m 0 c).before 2 t d)))

/-- and what it hands back. -/
def returned (c : Dev nD) (t : Fin cfg0.N) : sProp 𝕄 :=
  iprop((pipe m 0 c).Φ t.succ ∗ (pipe m 0 c).owesAt () t.succ
    ∗ owns (c : Thread nD τ) (st0_0 t) fullShare ((pipe m 0 c).after 0 t)
    ∗ owns (c : Thread nD τ) (st0_1 t) fullShare ((pipe m 0 c).after 1 t)
    ∗ owns (c : Thread nD τ) (st0_2 t) fullShare ((pipe m 0 c).after 2 t))

theorem body_at_point (c : Dev nD) (t : Fin cfg0.N) :
    handed m c t ⊢ wp frame (wpE (defs₀ (F := F)) Variants.none c none) Set.univ (bodyAt0 t) (fun _ => returned m c t) := by
  unfold handed returned bodyAt0
  simp only [frames_found, mask_found]
  rw [show (pipe m 0 c).Φ t.succ = (pipe m 0 c).Φ t.castSucc from rfl,
    show (pipe m 0 c).owesAt () t.succ = (pipe m 0 c).owesAt () t.castSucc from rfl,
    frames_left, mask_left, product_left]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (pipe (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of the program terminates, and every final state has
    each array of the pipeline at what the proof data's blocks assemble to and every other unscoped buffer as the region
    found it. -/
theorem runs : θ_run defs (onTc (τ := τ) (main (F := F))) (s₀ m ρ) (Pipeline.FramePost cfgs (pipe m) 0 (atEntry m)) :=
  Pipeline.θ_run_frame cfgs (pipe m) (0 : Fin 1) launch0 defs₀ Variants.none m ρ main
    (hbody := fun c => (body_everywhere m c).loose) (hshare := fun c => (pipe m 0 c).share_full fun _ => rfl)
    (howed := fun _ _ => rfl) (V := atEntry m) (hmain := to_region m Variants.none) (hA := pipe_arrays m) (hΦ := fun _ _ => rfl)

/-- After the run the frames array is as launched: its window stages it and never writes it back. -/
theorem frames_kept (r : PUnit × MemSt nD τ sig (Elt F)) (h : Pipeline.FramePost cfgs (pipe m) 0 (atEntry m) r) (c : Dev nD) :
    r.2.mem ((c : Thread nD τ).loc main_arg0) = m ((c : Thread nD τ).loc main_arg0) :=
  ((h c).1 0).trans (((pipe m 0 c).arrAt_in 0 rfl _).trans ((pipe_arrays m c 0).trans (frames_at_entry m c)))

/-- After the run the patch indices are as launched: no window stages them. -/
theorem indices_kept (r : PUnit × MemSt nD τ sig (Elt F)) (h : Pipeline.FramePost cfgs (pipe m) 0 (atEntry m) r) (c : Dev nD) :
    r.2.mem ((c : Thread nD τ).loc main_arg1) = m ((c : Thread nD τ).loc main_arg1) :=
  ((h c).2 main_arg1 (Pipeline.mem_restRefs_of main_arg1 (by decide) (by decide))).trans (indices_at_entry m c)

/-- The program runs to its end, faults nowhere and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨frames_kept m r h c, indices_kept m r h c⟩) (runs m ρ)

end Cert.Kernel.Region

end
-- ==== Proof.IdealRegion.lean ====
/-
  The run of the masked-frames program: the host builds the pixel mask (an array over frame, row and column), and one
  pipelined region multiplies the frames array, eight frames at a time, by that mask, every channel by the same mask
  value. This module carries the program from its launch to its end: the host operations ahead of the region leave
  the two argument arrays as launched and the mask array at the fold of their results; at grid point t the region
  stages frames t*8 .. t*8+7 of the frames array (all three channels) and of the mask, the body stores the product of
  the two staged blocks, the mask block broadcast along the channel axis, and the stored block is written back to
  frames t*8 .. t*8+7 of the result. Stated at any reading of the floats.
-/
import proofs.«165895_j74818330296837_1_alg».proof.Proof.Gen.KernelIdeal.Launch
import proofs.«165895_j74818330296837_1_alg».proof.Proof.Gen.KernelIdeal.Skeleton
import proofs.«165895_j74818330296837_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## From the launch to the region -/

/-- What core c's buffers hold when the region is entered: the launch contents folded through the five stretches of
    host operations (the patch side length, the remainder, the side length again, the floored quotient, and the
    scatter and the two expansions that make the pixel mask). -/
abbrev atEntry (c : Dev nD) (b : Ref sig .tc) : Buf (Elt F) ((c : Thread nD τ).loc b) :=
  StableHlo.after (List.flatten [hostOps0, hostOps0_1, hostOps0_2, hostOps0_3, hostOps0_4]) (fun b => m (c, b)) b

theorem stretch0_determined : (hostOps0 : List (HloOp τ sig (Elt F))).Forall fun op => op.fresh = ∅ := by
  simp only [List.Forall]; repeat' constructor
theorem stretch1_determined : (hostOps0_1 : List (HloOp τ sig (Elt F))).Forall fun op => op.fresh = ∅ := by
  simp only [List.Forall]; repeat' constructor
theorem stretch2_determined : (hostOps0_2 : List (HloOp τ sig (Elt F))).Forall fun op => op.fresh = ∅ := by
  simp only [List.Forall]; repeat' constructor
theorem stretch3_determined : (hostOps0_3 : List (HloOp τ sig (Elt F))).Forall fun op => op.fresh = ∅ := by
  simp only [List.Forall]; repeat' constructor
theorem stretch4_determined : (hostOps0_4 : List (HloOp τ sig (Elt F))).Forall fun op => op.fresh = ∅ := by
  simp only [List.Forall]; repeat' constructor

/-- The program is its host stretches, then the region. -/
theorem to_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨stretch0_determined, stretch1_determined, stretch2_determined, stretch3_determined, stretch4_determined⟩)
    main_chain

/-- No host operation writes the frames array: the region finds it as launched. -/
theorem frames_at_entry (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes the patch indices: the region finds them as launched. -/
theorem indices_at_entry (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks a grid point sees -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The frames window's staging buffer holds frames t*8 .. t*8+7 when the body starts, whatever the proof data, as
    long as its array is the entry contents and the body leaves the block in place. -/
theorem frames_staged {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the mask window. -/
theorem mask_staged {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole frames block, and the whole mask block: the only rectangles the body touches. -/
abbrev wholeFrames : Rect S3x8x224x224 := Rect.unit (s := S3x8x224x224) ![0, 0, 0, 0] S3x8x224x224.size inb_S3x8x224x224_S3x8x224x224_0_0_0_0
abbrev wholeMask : Rect S8x224x224 := Rect.unit (s := S8x224x224) ![0, 0, 0] S8x224x224.size inb_S8x224x224_S8x224x224_0_0_0

/-- The result block after the body: its one store, of the product of the frames block and the mask block. -/
def product (x : Vec F S3x8x224x224 .f32) (k : Vec F S8x224x224 .f32) : Vec F S3x8x224x224 .f32 :=
  View.canon [⟨wholeFrames, k0_pay1 (View.ld x wholeFrames) (View.ld k wholeMask)⟩]

/-- That one store covers the result block. -/
theorem store_covers (p : Vec F S3x8x224x224 .f32) (y : S3x8x224x224.Idx) :
    ∃ pc ∈ ([⟨wholeFrames, p⟩] : List (View.Piece (Elt F) S3x8x224x224 .f32)), y ∈ pc.1.set :=
  View.cover_of_tiled [⟨wholeFrames, p⟩] S3x8x224x224.size (by rfl) y

set_option maxHeartbeats 1000000 in
/-- The body, on whole staging buffers holding a frames block x and a mask block k and a result buffer holding anything,
    ends with the inputs as they were and the result buffer at their product. -/
theorem body_triple (c : Dev nD) (E : Set ℕ) (i : grid0.Coords) (arg1 : Memref sig .tc .vmem S3x8x224x224 .f32) (harg1 : arg1.IsWhole)
    (arg2 : Memref sig .tc .vmem S8x224x224 .f32) (harg2 : arg2.IsWhole) (arg3 : Memref sig .tc .vmem S3x8x224x224 .f32) (harg3 : arg3.IsWhole)
    (x : Vec F S3x8x224x224 .f32) (k : Vec F S8x224x224 .f32) (K : PUnit → sProp 𝕄) :
    iprop(owns (c : Thread nD τ) arg1 fullShare x ∗ owns (c : Thread nD τ) arg2 fullShare k ∗ (∃ d, owns (c : Thread nD τ) arg3 fullShare d)
        ∗ (iprop(owns (c : Thread nD τ) arg1 fullShare x ∗ owns (c : Thread nD τ) arg2 fullShare k ∗ owns (c : Thread nD τ) arg3 fullShare (product x k)) -∗ K ⟨⟩))
      ⊢ wp frame (wpE (defs₀ (F := F)) Variants.none c none) E (cc0__mask_mul_kernel i arg1 harg1 arg2 harg2 arg3 harg3) K := by
  simp only [cc0__mask_mul_kernel_eq_skeleton]; unfold cc0__mask_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core c: the arrays as the region finds them; after the body at point t the two input buffers still hold their
    blocks and the result buffer their product; nothing else is used, nothing owed. -/
def pipe (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => product (blockAt m c 0 t) (blockAt m c 1 t)
  Φ _ := Pipeline.ΦA spec0 c
  q _ := fullShare
  owed _ := 0

theorem pipe_arrays (c : Dev nD) (w : Fin cfg0.W) : (pipe m 0 c).A w = atEntry m c (Pipeline.arrRef spec0 w) := by
  dsimp only [pipe]

theorem frames_left (c : Dev nD) (t : Fin cfg0.N) : (pipe m 0 c).after 0 t = blockAt m c 0 t := by dsimp only [pipe]
theorem mask_left (c : Dev nD) (t : Fin cfg0.N) : (pipe m 0 c).after 1 t = blockAt m c 1 t := by dsimp only [pipe]
theorem product_left (c : Dev nD) (t : Fin cfg0.N) :
    (pipe m 0 c).after 2 t = product (blockAt m c 0 t) (blockAt m c 1 t) := by dsimp only [pipe]

theorem frames_found (c : Dev nD) (t : Fin cfg0.N) (d) : (pipe m 0 c).before 0 t d = blockAt m c 0 t :=
  frames_staged m (pipe m 0 c) (pipe_arrays m c 0) (frames_left m c) t d
theorem mask_found (c : Dev nD) (t : Fin cfg0.N) (d) : (pipe m 0 c).before 1 t d = blockAt m c 1 t :=
  mask_staged m (pipe m 0 c) (pipe_arrays m c 1) (mask_left m c) t d

/-! ## The body at a grid point -/

/-- What the body is called with at point t, -/
def handed (c : Dev nD) (t : Fin cfg0.N) : sProp 𝕄 :=
  iprop((pipe m 0 c).Φ t.castSucc ∗ (pipe m 0 c).owesAt () t.castSucc
    ∗ (∃ d, owns (c : Thread nD τ) (st0_0 t) fullShare ((pipe m 0 c).before 0 t d))
    ∗ (∃ d, owns (c : Thread nD τ) (st0_1 t) fullShare ((pipe m 0 c).before 1 t d))
    ∗ (∃ d, owns (c : Thread nD τ) (st0_2 t) fullShare ((pipe m 0 c).before 2 t d)))

/-- and what it hands back. -/
def returned (c : Dev nD) (t : Fin cfg0.N) : sProp 𝕄 :=
  iprop((pipe m 0 c).Φ t.succ ∗ (pipe m 0 c).owesAt () t.succ
    ∗ owns (c : Thread nD τ) (st0_0 t) fullShare ((pipe m 0 c).after 0 t)
    ∗ owns (c : Thread nD τ) (st0_1 t) fullShare ((pipe m 0 c).after 1 t)
    ∗ owns (c : Thread nD τ) (st0_2 t) fullShare ((pipe m 0 c).after 2 t))

theorem body_at_point (c : Dev nD) (t : Fin cfg0.N) :
    handed m c t ⊢ wp frame (wpE (defs₀ (F := F)) Variants.none c none) Set.univ (bodyAt0 t) (fun _ => returned m c t) := by
  unfold handed returned bodyAt0
  simp only [frames_found, mask_found]
  rw [show (pipe m 0 c).Φ t.succ = (pipe m 0 c).Φ t.castSucc from rfl,
    show (pipe m 0 c).owesAt () t.succ = (pipe m 0 c).owesAt () t.castSucc from rfl,
    frames_left, mask_left, product_left]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (pipe (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of the program terminates, and every final state has
    each array of the pipeline at what the proof data's blocks assemble to and every other unscoped buffer as the region
    found it. -/
theorem runs : θ_run defs (onTc (τ := τ) (main (F := F))) (s₀ m ρ) (Pipeline.FramePost cfgs (pipe m) 0 (atEntry m)) :=
  Pipeline.θ_run_frame cfgs (pipe m) (0 : Fin 1) launch0 defs₀ Variants.none m ρ main
    (hbody := fun c => (body_everywhere m c).loose) (hshare := fun c => (pipe m 0 c).share_full fun _ => rfl)
    (howed := fun _ _ => rfl) (V := atEntry m) (hmain := to_region m Variants.none) (hA := pipe_arrays m) (hΦ := fun _ _ => rfl)

/-- After the run the frames array is as launched: its window stages it and never writes it back. -/
theorem frames_kept (r : PUnit × MemSt nD τ sig (Elt F)) (h : Pipeline.FramePost cfgs (pipe m) 0 (atEntry m) r) (c : Dev nD) :
    r.2.mem ((c : Thread nD τ).loc main_arg0) = m ((c : Thread nD τ).loc main_arg0) :=
  ((h c).1 0).trans (((pipe m 0 c).arrAt_in 0 rfl _).trans ((pipe_arrays m c 0).trans (frames_at_entry m c)))

/-- After the run the patch indices are as launched: no window stages them. -/
theorem indices_kept (r : PUnit × MemSt nD τ sig (Elt F)) (h : Pipeline.FramePost cfgs (pipe m) 0 (atEntry m) r) (c : Dev nD) :
    r.2.mem ((c : Thread nD τ).loc main_arg1) = m ((c : Thread nD τ).loc main_arg1) :=
  ((h c).2 main_arg1 (Pipeline.mem_restRefs_of main_arg1 (by decide) (by decide))).trans (indices_at_entry m c)

/-- The program runs to its end, faults nowhere and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨frames_kept m r h c, indices_kept m r h c⟩) (runs m ρ)

end Cert.KernelIdeal.Region

end
-- ==== Proof.MaskedFrames.lean ====
/-
  What both programs compute: every element of the frames array (channel, frame, row, column) multiplied by the pixel
  mask's entry under it (frame, row, column), the same mask entry for the three channels. The mask is an argument
  here: how it is made from the patch indices is the two programs' common host text, which no statement below opens.
  Two readings at an index: the reference's way of giving the mask to every channel (a new leading axis of extent one,
  then that axis stretched to three) and the kernel body's way on one block of eight frames (the block recast with a
  leading unit axis, then broadcast along it).
-/
import Idealize.ShloMosaic.PureOps
import Idealize.ShloMosaic.Lib.ValueIdx
import Idealize.ShloMosaic.Lib.Pipeline.Value

noncomputable section

namespace Cert.MaskedFrames

open Idealize.ShloMosaic Idealize.ShloMosaic.ValueIdx

variable {F : FTy → Type} [FloatOps F]

/-- The frames array: channel, frame, row, column. -/
abbrev Frames : Shape := ⟨4, ![3, 256, 224, 224]⟩
/-- The pixel mask: frame, row, column. -/
abbrev Pixels : Shape := ⟨3, ![256, 224, 224]⟩
/-- The mask with a channel axis of extent one. -/
abbrev PixelsOne : Shape := ⟨4, ![1, 256, 224, 224]⟩
/-- Eight frames of the frames array, of the mask, and of the mask with its unit channel axis. -/
abbrev FramesBlock : Shape := ⟨4, ![3, 8, 224, 224]⟩
abbrev PixelsBlock : Shape := ⟨3, ![8, 224, 224]⟩
abbrev PixelsOneBlock : Shape := ⟨4, ![1, 8, 224, 224]⟩

/-- The pixel under an element of the frames array: its frame, row and column. -/
def under (i : Frames.Idx) : Pixels.Idx := ix3 (i 1 : Fin 256) (i 2 : Fin 224) (i 3 : Fin 224)

/-- The same inside a block of eight frames. -/
def underBlock (j : FramesBlock.Idx) : PixelsBlock.Idx := ix3 (j 1 : Fin 8) (j 2 : Fin 224) (j 3 : Fin 224)

/-- The frames masked: each element times the mask's entry under it. -/
def masked (x : Vec F Frames .f32) (k : Vec F Pixels .f32) : Vec F Frames .f32 :=
  fun i => FloatOps.mulf (x i) (k (under i))

/-- The reference's product: the mask given a unit channel axis, that axis stretched to the three channels, and the
    frames multiplied by it, is the frames masked. -/
theorem stretched_product (h1 : Pixels.BroadcastsInDim PixelsOne (![1, 2, 3] : Fin 3 → Fin 4))
    (h3 : PixelsOne.BroadcastsInDim Frames (![0, 1, 2, 3] : Fin 4 → Fin 4)) (x : Vec F Frames .f32) (k : Vec F Pixels .f32) :
    mulf (F := F) (φ := .f32) x (broadcastInDim Frames ![0, 1, 2, 3] h3 (broadcastInDim PixelsOne ![1, 2, 3] h1 k)) = masked x k := by
  funext i
  show FloatOps.mulf (x i) (broadcastInDim Frames ![0, 1, 2, 3] h3 (broadcastInDim PixelsOne ![1, 2, 3] h1 k) i) = FloatOps.mulf (x i) (k (under i))
  congr 1
  refine (broadcastInDim_apply _ h3 _ i (ix4 (0 : Fin 1) (i 1 : Fin 256) (i 2 : Fin 224) (i 3 : Fin 224)) ?_).trans ?_
  · intro a
    match a with
    | ⟨0, _⟩ => rfl
    | ⟨1, _⟩ => rfl
    | ⟨2, _⟩ => rfl
    | ⟨3, _⟩ => rfl
  refine (broadcastInDim_apply _ h1 _ _ (under i) ?_).trans rfl
  intro a
  match a with
  | ⟨0, _⟩ => rfl
  | ⟨1, _⟩ => rfl
  | ⟨2, _⟩ => rfl

/-- The kernel body's product on one block: the mask block recast to itself, recast with a leading unit axis, broadcast
    along that axis and multiplied into the frames block reads, at an element, the frames block's entry times the mask
    block's entry under it. -/
theorem block_product (c0 : PixelsBlock.ShapeCasts PixelsBlock) (c1 : PixelsBlock.ShapeCasts PixelsOneBlock)
    (b : PixelsOneBlock.Broadcasts FramesBlock) (x : Vec F FramesBlock .f32) (k : Vec F PixelsBlock .f32) (j : FramesBlock.Idx) :
    mulf (F := F) (φ := .f32) x (broadcastTo FramesBlock (shapeCast PixelsOneBlock (shapeCast PixelsBlock k c0) c1) b) j
      = FloatOps.mulf (x j) (k (underBlock j)) := by
  show FloatOps.mulf (x j) (broadcastTo FramesBlock (shapeCast PixelsOneBlock (shapeCast PixelsBlock k c0) c1) b j) = _
  congr 1
  refine (broadcastTo_apply _ b j (ix4 (0 : Fin 1) (j 1 : Fin 8) (j 2 : Fin 224) (j 3 : Fin 224)) ?_).trans ?_
  · intro a
    match a with
    | ⟨0, _⟩ => rfl
    | ⟨1, _⟩ => rfl
    | ⟨2, _⟩ => rfl
    | ⟨3, _⟩ => rfl
  refine (shapeCast_addUnit_apply (![8, 224, 224] : Fin 3 → Nat) _ c1 _).trans ?_
  rw [shapeCast_self]
  exact congrArg k (funext fun a => match a with | ⟨0, _⟩ => rfl | ⟨1, _⟩ => rfl | ⟨2, _⟩ => rfl)

end Cert.MaskedFrames

end
-- ==== Proof.KernelProduct.lean ====
/-
  The kernel's result array. At grid point t the region writes back, to frames t*8 .. t*8+7 of the result, the frames
  block times the mask block; the three windows move together (the frames and result windows at block (0, t, 0, 0),
  the mask window at block (t, 0, 0)), so what is written back is block t of ONE array: the frames, as the region
  finds them, masked by the mask array as the region finds it. The thirty-two blocks cover the result, frame f being in
  block f / 8, so after the run the result array is that masked array, and the frames are the launch's.
-/
import proofs.«165895_j74818330296837_1_alg».proof.Proof.IdealRegion
import proofs.«165895_j74818330296837_1_alg».proof.Proof.MaskedFrames
import Idealize.ShloMosaic.Lib.Pipeline.Value

set_option maxRecDepth 16384

noncomputable section

namespace Cert.KernelIdeal.Product

open Cert.KernelIdeal Cert.KernelIdeal.Gen Cert.KernelIdeal.Region Cert.MaskedFrames
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- The body's stored value at an element of the block: the frames block's entry times the mask block's entry under it. -/
theorem stored_at (x : Vec F S3x8x224x224 .f32) (k : Vec F S8x224x224 .f32) (j : S3x8x224x224.Idx) :
    k0_pay1 x k j = FloatOps.mulf (x j) (k (underBlock j)) := by
  unfold k0_pay1
  exact block_product _ _ _ x k j

/-- The printed index maps, decided over the thirty-two points: the frames window sits where the result window sits, and
    the mask window's three block indices are the result window's last three. -/
theorem windows_move_together : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = win0_2.index t (3 : Fin 4)
    ∧ win0_1.index t (0 : Fin 3) = win0_2.index t (1 : Fin 4) ∧ win0_1.index t (1 : Fin 3) = win0_2.index t (2 : Fin 4)
    ∧ win0_1.index t (2 : Fin 3) = win0_2.index t (3 : Fin 4) :=
  (by decide +kernel : ∀ t : Fin grid0.N, _)

/-- The result window at point t is block (0, t, 0, 0). -/
theorem result_block_of_point : ∀ t : Fin cfg0.N,
    win0_2.index t (0 : Fin 4) = 0 ∧ win0_2.index t (1 : Fin 4) = t.val ∧ win0_2.index t (2 : Fin 4) = 0 ∧ win0_2.index t (3 : Fin 4) = 0 :=
  (by decide +kernel : ∀ t : Fin grid0.N, _)

/-- What point t writes back is block t of the frames masked, both arrays as the region finds them. -/
theorem written_back (c : Dev nD) (t : Fin cfg0.N) :
    (pipe m 0 c).flushed 2 t
      = ((cfg0.win 2).blk t).view.read (Elt F) (masked (atEntry m c main_arg0) (atEntry m c main_v30)) := by
  show (cfg0.win 2).cut (grid0.coords t) ((pipe m 0 c).after 2 t) = _
  rw [product_left]
  unfold product
  rw [View.canon_unit_zero zero4]
  simp only [View.ld_unit_zero (S := S3x8x224x224) zero4, View.ld_unit_zero (S := S8x224x224) zero3]
  obtain ⟨e0, e1, e2, e3, e4, e5, e6⟩ := windows_move_together t
  funext j
  refine (stored_at (blockAt m c 0 t) (blockAt m c 1 t) j).trans ?_
  show FloatOps.mulf (atEntry m c main_arg0 (((cfg0.win 0).blk t).view.emb j))
      (atEntry m c main_v30 (((cfg0.win 1).blk t).view.emb (underBlock j)))
    = FloatOps.mulf (atEntry m c main_arg0 (((cfg0.win 2).blk t).view.emb j))
      (atEntry m c main_v30 (under (((cfg0.win 2).blk t).view.emb j)))
  have h0 : ((cfg0.win 0).blk t).view.emb j = ((cfg0.win 2).blk t).view.emb j := by
    funext a; apply Fin.ext
    match a with
    | ⟨0, _⟩ => show win0_0.index t (0 : Fin 4) * 3 + 1 * (j 0).val = win0_2.index t (0 : Fin 4) * 3 + 1 * (j 0).val; omega
    | ⟨1, _⟩ => show win0_0.index t (1 : Fin 4) * 8 + 1 * (j 1).val = win0_2.index t (1 : Fin 4) * 8 + 1 * (j 1).val; omega
    | ⟨2, _⟩ => show win0_0.index t (2 : Fin 4) * 224 + 1 * (j 2).val = win0_2.index t (2 : Fin 4) * 224 + 1 * (j 2).val; omega
    | ⟨3, _⟩ => show win0_0.index t (3 : Fin 4) * 224 + 1 * (j 3).val = win0_2.index t (3 : Fin 4) * 224 + 1 * (j 3).val; omega
  have h1 : ((cfg0.win 1).blk t).view.emb (underBlock j) = under (((cfg0.win 2).blk t).view.emb j) := by
    funext a; apply Fin.ext
    match a with
    | ⟨0, _⟩ => show win0_1.index t (0 : Fin 3) * 8 + 1 * (j 1).val = win0_2.index t (1 : Fin 4) * 8 + 1 * (j 1).val; omega
    | ⟨1, _⟩ => show win0_1.index t (1 : Fin 3) * 224 + 1 * (j 2).val = win0_2.index t (2 : Fin 4) * 224 + 1 * (j 2).val; omega
    | ⟨2, _⟩ => show win0_1.index t (2 : Fin 3) * 224 + 1 * (j 3).val = win0_2.index t (3 : Fin 4) * 224 + 1 * (j 3).val; omega
  rw [h0, h1]

/-- An element of the result array is in point t's block iff each coordinate is in the block's range on its axis. -/
theorem in_block (t : Fin cfg0.N) (i : S3x256x224x224.Idx) :
    i ∈ ((cfg0.win 2).blk t).view.set ↔ ∀ a : Fin 4, win0_2.index t a * S3x8x224x224.size a ≤ (i a).val
      ∧ (i a).val < win0_2.index t a * S3x8x224x224.size a + S3x8x224x224.size a := by
  show i ∈ ((View.whole main_v31).slice (win0_2.rect t)).set ↔ _
  rw [View.set_slice_whole, Rect.mem_set_unit]
  exact Iff.rfl

/-- Every element of the result array is written back by some point: frame f by point f / 8. -/
theorem every_element_written (i : S3x256x224x224.Idx) :
    ∃ t : Fin cfg0.N, (cfg0.win 2).flush t = true ∧ i ∈ ((cfg0.win 2).blk t).view.set := by
  have h0 : (i 0).val < 3 := (i 0).isLt
  have h1 : (i 1).val < 256 := (i 1).isLt
  have h2 : (i 2).val < 224 := (i 2).isLt
  have h3 : (i 3).val < 224 := (i 3).isLt
  have hN : cfg0.N = 32 := N_0
  have hq : (i 1).val / 8 < cfg0.N := by omega
  refine ⟨⟨(i 1).val / 8, hq⟩, flush0_2 _, ?_⟩
  rw [in_block]
  obtain ⟨e0, e1, e2, e3⟩ := result_block_of_point ⟨(i 1).val / 8, hq⟩
  intro a
  match a with
  | ⟨0, _⟩ =>
    show win0_2.index ⟨(i 1).val / 8, hq⟩ (0 : Fin 4) * 3 ≤ (i 0).val ∧ (i 0).val < win0_2.index ⟨(i 1).val / 8, hq⟩ (0 : Fin 4) * 3 + 3
    rw [e0]; omega
  | ⟨1, _⟩ =>
    show win0_2.index ⟨(i 1).val / 8, hq⟩ (1 : Fin 4) * 8 ≤ (i 1).val ∧ (i 1).val < win0_2.index ⟨(i 1).val / 8, hq⟩ (1 : Fin 4) * 8 + 8
    rw [e1]; show (i 1).val / 8 * 8 ≤ (i 1).val ∧ (i 1).val < (i 1).val / 8 * 8 + 8; omega
  | ⟨2, _⟩ =>
    show win0_2.index ⟨(i 1).val / 8, hq⟩ (2 : Fin 4) * 224 ≤ (i 2).val ∧ (i 2).val < win0_2.index ⟨(i 1).val / 8, hq⟩ (2 : Fin 4) * 224 + 224
    rw [e2]; omega
  | ⟨3, _⟩ =>
    show win0_2.index ⟨(i 1).val / 8, hq⟩ (3 : Fin 4) * 224 ≤ (i 3).val ∧ (i 3).val < win0_2.index ⟨(i 1).val / 8, hq⟩ (3 : Fin 4) * 224 + 224
    rw [e3]; omega

/-- The result array after the run: the launch's frames masked by the mask array the host operations left. -/
theorem result_array (c : Dev nD) :
    (pipe m 0 c).arrAt 2 cfg0.N = masked (m ((c : Thread nD τ).loc main_arg0)) (atEntry m c main_v30) := by
  rw [← frames_at_entry m c]
  exact (pipe m 0 c).arrAt_eq_of_cover 2 (masked (atEntry m c main_arg0) (atEntry m c main_v30))
    (fun t _ => written_back m c t) every_element_written

/-- The run, read: the result array at the frames masked, both arguments unchanged. -/
theorem computes : θ_run defs (onTc (τ := τ) (main (F := F))) ⟨m, fun _ => 0, ρ⟩ fun r => ∀ c : Dev nD,
      r.2.mem ((c : Thread nD τ).loc main_v31) = masked (m ((c : Thread nD τ).loc main_arg0)) (atEntry m c main_v30)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (result_array m c), frames_kept m r h c, indices_kept m r h c⟩)
    (runs m ρ)

end Cert.KernelIdeal.Product

end
-- ==== Proof.ReferenceOps.lean ====
import proofs.«165895_j74818330296837_1_alg».proof.Proof.Gen.ReferenceIdeal
import Idealize.ShloMosaic.Lib.StableHlo.Run

noncomputable section

namespace Cert.ReferenceIdeal.HostOps

open Cert.ReferenceIdeal Cert.ReferenceIdeal.Gen Idealize.ShloMosaic Idealize.ShloMosaic.TcCoe Idealize.SL.Sem

variable {F : FTy → Type} [FloatOps F]

/-- The patch grid's side length, 16. -/
abbrev sideLength : List (HloOp τ sig (Elt F)) :=
  [ StableHlo.nullary main_c (constantI S_ 32 16#32) ]

/-- The patch index modulo the side length, sign-corrected: the patch's row. -/
abbrev remainderOps : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S256x128, .i32⟩) (broadcastInDim S256x128 ![] bcast_S_S256x128),
    StableHlo.TRef.binary (.of main_arg1 : StableHlo.TRef sig ⟨S256x128, .i32⟩) (.of main_call0_v3 : StableHlo.TRef sig ⟨S256x128, .i32⟩) (.of main_call0_v4 : StableHlo.TRef sig ⟨S256x128, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S256x128, .i32⟩) (broadcastInDim S256x128 ![] bcast_S_S256x128),
    StableHlo.TRef.binary (.of main_call0_v4 : StableHlo.TRef sig ⟨S256x128, .i32⟩) (.of main_call0_v5 : StableHlo.TRef sig ⟨S256x128, .i32⟩) (.of main_call0_v6 : StableHlo.TRef sig ⟨S256x128, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S256x128, .i32⟩) (broadcastInDim S256x128 ![] bcast_S_S256x128),
    StableHlo.TRef.binary (.of main_call0_v4 : StableHlo.TRef sig ⟨S256x128, .i32⟩) (.of main_call0_v7 : StableHlo.TRef sig ⟨S256x128, .i32⟩) (.of main_call0_v8 : StableHlo.TRef sig ⟨S256x128, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S256x128, .i1⟩) (broadcastInDim S256x128 ![] bcast_S_S256x128),
    StableHlo.TRef.binary (.of main_call0_v8 : StableHlo.TRef sig ⟨S256x128, .i1⟩) (.of main_call0_v10 : StableHlo.TRef sig ⟨S256x128, .i1⟩) (.of main_call0_v11 : StableHlo.TRef sig ⟨S256x128, .i1⟩) (cmpi .ne),
    StableHlo.TRef.binary (.of main_call0_v11 : StableHlo.TRef sig ⟨S256x128, .i1⟩) (.of main_call0_v6 : StableHlo.TRef sig ⟨S256x128, .i1⟩) (.of main_call0_v12 : StableHlo.TRef sig ⟨S256x128, .i1⟩) andi,
    StableHlo.TRef.unary main_call0_call0.v0 (.of main_call0_v13 : StableHlo.TRef sig ⟨S256x128, .i32⟩) (broadcastInDim S256x128 ![] bcast_S_S256x128),
    StableHlo.TRef.binary (.of main_call0_v4 : StableHlo.TRef sig ⟨S256x128, .i32⟩) (.of main_call0_v13 : StableHlo.TRef sig ⟨S256x128, .i32⟩) (.of main_call0_v14 : StableHlo.TRef sig ⟨S256x128, .i32⟩) addi,
    StableHlo.TRef.ternary (.of main_call0_v12 : StableHlo.TRef sig ⟨S256x128, .i1⟩) (.of main_call0_v14 : StableHlo.TRef sig ⟨S256x128, .i32⟩) (.of main_call0_v4 : StableHlo.TRef sig ⟨S256x128, .i32⟩) (.of main_v0 : StableHlo.TRef sig ⟨S256x128, .i32⟩) select ]

/-- The side length once more. -/
abbrev sideLengthAgain : List (HloOp τ sig (Elt F)) :=
  [ StableHlo.nullary main_c_0 (constantI S_ 32 16#32) ]

/-- The patch index divided by the side length, rounded down: the patch's column. -/
abbrev quotientOps : List (HloOp τ sig (Elt F)) :=
  [ StableHlo.TRef.unary (.of main_c_0 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S256x128, .i32⟩) (broadcastInDim S256x128 ![] bcast_S_S256x128),
    StableHlo.TRef.binary (.of main_arg1 : StableHlo.TRef sig ⟨S256x128, .i32⟩) (.of main_call1_v1 : StableHlo.TRef sig ⟨S256x128, .i32⟩) (.of main_call1_v2 : StableHlo.TRef sig ⟨S256x128, .i32⟩) Host.divsi,
    StableHlo.TRef.unary (.of main_arg1 : StableHlo.TRef sig ⟨S256x128, .i32⟩) (.of main_call1_v3 : StableHlo.TRef sig ⟨S256x128, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S256x128, .i32⟩) (broadcastInDim S256x128 ![] bcast_S_S256x128),
    StableHlo.TRef.binary (.of main_call1_v3 : StableHlo.TRef sig ⟨S256x128, .i32⟩) (.of main_call1_v5 : StableHlo.TRef sig ⟨S256x128, .i32⟩) (.of main_call1_v6 : StableHlo.TRef sig ⟨S256x128, .i1⟩) (cmpi .ne),
    StableHlo.TRef.unary (.of main_call1_v0 : StableHlo.TRef sig ⟨S_, .i32⟩) (.of main_call1_v7 : StableHlo.TRef sig ⟨S256x128, .i32⟩) (broadcastInDim S256x128 ![] bcast_S_S256x128),
    StableHlo.TRef.binary (.of main_arg1 : StableHlo.TRef sig ⟨S256x128, .i32⟩) (.of main_call1_v7 : StableHlo.TRef sig ⟨S256x128, .i32⟩) (.of main_call1_v8 : StableHlo.TRef sig ⟨S256x128, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S256x128, .i32⟩) (broadcastInDim S256x128 ![] bcast_S_S256x128),
    StableHlo.TRef.binary (.of main_call1_v8 : StableHlo.TRef sig ⟨S256x128, .i32⟩) (.of main_call1_v9 : StableHlo.TRef sig ⟨S256x128, .i32⟩) (.of main_call1_v10 : StableHlo.TRef sig ⟨S256x128, .i1⟩) (cmpi .ne),
    StableHlo.TRef.binary (.of main_call1_v6 : StableHlo.TRef sig ⟨S256x128, .i1⟩) (.of main_call1_v10 : StableHlo.TRef sig ⟨S256x128, .i1⟩) (.of main_call1_v11 : StableHlo.TRef sig ⟨S256x128, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S256x128, .i32⟩) (broadcastInDim S256x128 ![] bcast_S_S256x128),
    StableHlo.TRef.binary (.of main_call1_v2 : StableHlo.TRef sig ⟨S256x128, .i32⟩) (.of main_call1_v12 : StableHlo.TRef sig ⟨S256x128, .i32⟩) (.of main_call1_v13 : StableHlo.TRef sig ⟨S256x128, .i32⟩) subi,
    StableHlo.TRef.ternary (.of main_call1_v11 : StableHlo.TRef sig ⟨S256x128, .i1⟩) (.of main_call1_v13 : StableHlo.TRef sig ⟨S256x128, .i32⟩) (.of main_call1_v2 : StableHlo.TRef sig ⟨S256x128, .i32⟩) (.of main_v1 : StableHlo.TRef sig ⟨S256x128, .i32⟩) select ]

/-- The frame numbers, the all-ones patch grid, negative coordinates wrapped, the three coordinates joined, zero scattered at them, and each patch repeated fourteen times along rows and along columns: the pixel mask. -/
abbrev maskOps : List (HloOp τ sig (Elt F)) :=
  ( StableHlo.nullary main_v2 (iotaInDim S256 32 0)
  :: StableHlo.unary main_v2 main_v3 (broadcastInDim S256x1 ![0] bcast_S256_S256x1_0 : (⟨S256, .i32⟩ : BufTy).Contents (Elt F) → (⟨S256x1, .i32⟩ : BufTy).Contents (Elt F))
  :: StableHlo.nullary main_cst (constant S_ .f32 0x3F800000#32)
  :: StableHlo.unary main_cst main_v4 (broadcastInDim S256x16x16 ![] bcast_S_S256x16x16 : (⟨S_, .f32⟩ : BufTy).Contents (Elt F) → (⟨S256x16x16, .f32⟩ : BufTy).Contents (Elt F))
  :: StableHlo.nullary main_c_1 (constantI S_ 32 0#32)
  :: StableHlo.unary main_c_1 main_v5 (broadcastInDim S256x1 ![] bcast_S_S256x1 : (⟨S_, .i32⟩ : BufTy).Contents (Elt F) → (⟨S256x1, .i32⟩ : BufTy).Contents (Elt F))
  :: StableHlo.binary main_v3 main_v5 main_v6 (cmpi .slt : (⟨S256x1, .i32⟩ : BufTy).Contents (Elt F) → (⟨S256x1, .i32⟩ : BufTy).Contents (Elt F) → (⟨S256x1, .i1⟩ : BufTy).Contents (Elt F))
  :: StableHlo.nullary main_c_2 (constantI S_ 32 256#32)
  :: StableHlo.unary main_c_2 main_v7 (broadcastInDim S256x1 ![] bcast_S_S256x1 : (⟨S_, .i32⟩ : BufTy).Contents (Elt F) → (⟨S256x1, .i32⟩ : BufTy).Contents (Elt F))
  :: StableHlo.binary main_v3 main_v7 main_v8 (addi : (⟨S256x1, .i32⟩ : BufTy).Contents (Elt F) → (⟨S256x1, .i32⟩ : BufTy).Contents (Elt F) → (⟨S256x1, .i32⟩ : BufTy).Contents (Elt F))
  :: StableHlo.ternary main_v6 main_v8 main_v3 main_v9 (select : (⟨S256x1, .i1⟩ : BufTy).Contents (Elt F) → (⟨S256x1, .i32⟩ : BufTy).Contents (Elt F) → (⟨S256x1, .i32⟩ : BufTy).Contents (Elt F) → (⟨S256x1, .i32⟩ : BufTy).Contents (Elt F))
  :: StableHlo.nullary main_c_3 (constantI S_ 32 0#32)
  :: StableHlo.unary main_c_3 main_v10 (broadcastInDim S256x128 ![] bcast_S_S256x128 : (⟨S_, .i32⟩ : BufTy).Contents (Elt F) → (⟨S256x128, .i32⟩ : BufTy).Contents (Elt F))
  :: StableHlo.binary main_v0 main_v10 main_v11 (cmpi .slt : (⟨S256x128, .i32⟩ : BufTy).Contents (Elt F) → (⟨S256x128, .i32⟩ : BufTy).Contents (Elt F) → (⟨S256x128, .i1⟩ : BufTy).Contents (Elt F))
  :: StableHlo.nullary main_c_4 (constantI S_ 32 16#32)
  :: StableHlo.unary main_c_4 main_v12 (broadcastInDim S256x128 ![] bcast_S_S256x128 : (⟨S_, .i32⟩ : BufTy).Contents (Elt F) → (⟨S256x128, .i32⟩ : BufTy).Contents (Elt F))
  :: StableHlo.binary main_v0 main_v12 main_v13 (addi : (⟨S256x128, .i32⟩ : BufTy).Contents (Elt F) → (⟨S256x128, .i32⟩ : BufTy).Contents (Elt F) → (⟨S256x128, .i32⟩ : BufTy).Contents (Elt F))
  :: StableHlo.ternary main_v11 main_v13 main_v0 main_v14 (select : (⟨S256x128, .i1⟩ : BufTy).Contents (Elt F) → (⟨S256x128, .i32⟩ : BufTy).Contents (Elt F) → (⟨S256x128, .i32⟩ : BufTy).Contents (Elt F) → (⟨S256x128, .i32⟩ : BufTy).Contents (Elt F))
  :: StableHlo.nullary main_c_5 (constantI S_ 32 0#32)
  :: StableHlo.unary main_c_5 main_v15 (broadcastInDim S256x128 ![] bcast_S_S256x128 : (⟨S_, .i32⟩ : BufTy).Contents (Elt F) → (⟨S256x128, .i32⟩ : BufTy).Contents (Elt F))
  :: StableHlo.binary main_v1 main_v15 main_v16 (cmpi .slt : (⟨S256x128, .i32⟩ : BufTy).Contents (Elt F) → (⟨S256x128, .i32⟩ : BufTy).Contents (Elt F) → (⟨S256x128, .i1⟩ : BufTy).Contents (Elt F))
  :: StableHlo.nullary main_c_6 (constantI S_ 32 16#32)
  :: StableHlo.unary main_c_6 main_v17 (broadcastInDim S256x128 ![] bcast_S_S256x128 : (⟨S_, .i32⟩ : BufTy).Contents (Elt F) → (⟨S256x128, .i32⟩ : BufTy).Contents (Elt F))
  :: StableHlo.binary main_v1 main_v17 main_v18 (addi : (⟨S256x128, .i32⟩ : BufTy).Contents (Elt F) → (⟨S256x128, .i32⟩ : BufTy).Contents (Elt F) → (⟨S256x128, .i32⟩ : BufTy).Contents (Elt F))
  :: StableHlo.ternary main_v16 main_v18 main_v1 main_v19 (select : (⟨S256x128, .i1⟩ : BufTy).Contents (Elt F) → (⟨S256x128, .i32⟩ : BufTy).Contents (Elt F) → (⟨S256x128, .i32⟩ : BufTy).Contents (Elt F) → (⟨S256x128, .i32⟩ : BufTy).Contents (Elt F))
  :: StableHlo.unary main_v9 main_v20 (broadcastInDim S256x128 ![0, 1] bcast_S256x1_S256x128_0_1 : (⟨S256x1, .i32⟩ : BufTy).Contents (Elt F) → (⟨S256x128, .i32⟩ : BufTy).Contents (Elt F))
  :: StableHlo.unary main_v20 main_v21 (broadcastInDim S256x128x1 ![0, 1] bcast_S256x128_S256x128x1_0_1 : (⟨S256x128, .i32⟩ : BufTy).Contents (Elt F) → (⟨S256x128x1, .i32⟩ : BufTy).Contents (Elt F))
  :: StableHlo.unary main_v14 main_v22 (broadcastInDim S256x128x1 ![0, 1] bcast_S256x128_S256x128x1_0_1 : (⟨S256x128, .i32⟩ : BufTy).Contents (Elt F) → (⟨S256x128x1, .i32⟩ : BufTy).Contents (Elt F))
  :: StableHlo.unary main_v19 main_v23 (broadcastInDim S256x128x1 ![0, 1] bcast_S256x128_S256x128x1_0_1 : (⟨S256x128, .i32⟩ : BufTy).Contents (Elt F) → (⟨S256x128x1, .i32⟩ : BufTy).Contents (Elt F))
  :: StableHlo.nary ![main_v21, main_v22, main_v23] main_v24 (fun u => concatenate S256x128x3 2 [⟨S256x128x1, u 0⟩, ⟨S256x128x1, u 1⟩, ⟨S256x128x1, u 2⟩] concatenates_S256x128x1_S256x128x1_S256x128x1_S256x128x3_d2)
  :: StableHlo.nullary main_cst_7 (constant S_ .f32 0x00000000#32)
  :: StableHlo.unary main_cst_7 main_v25 (broadcastInDim S256x128 ![] bcast_S_S256x128 : (⟨S_, .f32⟩ : BufTy).Contents (Elt F) → (⟨S256x128, .f32⟩ : BufTy).Contents (Elt F))
  :: StableHlo.ternary main_v4 main_v24 main_v25 main_v26 ((fun x i u => Host.scatter scatter_S256x16x16_S256x128x3_S256x128_n_012_012_2 (fun _ b => b) x i u) : (⟨S256x16x16, .f32⟩ : BufTy).Contents (Elt F) → (⟨S256x128x3, .i32⟩ : BufTy).Contents (Elt F) → (⟨S256x128, .f32⟩ : BufTy).Contents (Elt F) → (⟨S256x16x16, .f32⟩ : BufTy).Contents (Elt F))
  :: StableHlo.unary main_v26 main_v27 (broadcastInDim S256x16x14x16 ![0, 1, 3] bcast_S256x16x16_S256x16x14x16_0_1_3 : (⟨S256x16x16, .f32⟩ : BufTy).Contents (Elt F) → (⟨S256x16x14x16, .f32⟩ : BufTy).Contents (Elt F))
  :: StableHlo.reshape main_v27 main_v28 rfl shapeCasts_S256x16x14x16_S256x224x16
  :: StableHlo.unary main_v28 main_v29 (broadcastInDim S256x224x16x14 ![0, 1, 2] bcast_S256x224x16_S256x224x16x14_0_1_2 : (⟨S256x224x16, .f32⟩ : BufTy).Contents (Elt F) → (⟨S256x224x16x14, .f32⟩ : BufTy).Contents (Elt F))
  :: StableHlo.reshape main_v29 main_v30 rfl shapeCasts_S256x224x16x14_S256x224x224
  :: [] )

/-- The mask given every channel, and the frames multiplied by it. -/
abbrev productOps : List (HloOp τ sig (Elt F)) :=
  [ StableHlo.unary main_v30 main_v31 (broadcastInDim S1x256x224x224 ![1, 2, 3] bcast_S256x224x224_S1x256x224x224_1_2_3 : (⟨S256x224x224, .f32⟩ : BufTy).Contents (Elt F) → (⟨S1x256x224x224, .f32⟩ : BufTy).Contents (Elt F)),
    StableHlo.unary main_v31 main_v32 (broadcastInDim S3x256x224x224 ![0, 1, 2, 3] bcast_S1x256x224x224_S3x256x224x224_0_1_2_3 : (⟨S1x256x224x224, .f32⟩ : BufTy).Contents (Elt F) → (⟨S3x256x224x224, .f32⟩ : BufTy).Contents (Elt F)),
    StableHlo.binary main_arg0 main_v32 main_v33 (mulf : (⟨S3x256x224x224, .f32⟩ : BufTy).Contents (Elt F) → (⟨S3x256x224x224, .f32⟩ : BufTy).Contents (Elt F) → (⟨S3x256x224x224, .f32⟩ : BufTy).Contents (Elt F)) ]

end Cert.ReferenceIdeal.HostOps

end
-- ==== Proof.LibHostFold.lean ====
/-
  Reading a straight line of host operations: what a buffer holds after the line is the fold of the operations'
  results, and these lemmas compute that fold when a line holds a three-operand operation (a concatenate of three
  parts), which the library reads only for four operands.
-/
import Idealize.ShloMosaic.Lib.StableHlo.Run

noncomputable section

namespace Idealize.ShloMosaic.StableHlo.HostFold

open Idealize.ShloMosaic Idealize.ShloMosaic.StableHlo

variable {τ : Topo} {sig : RefSig} {Val : EltTy → Type}

/-- The fold over two lines in a row is the second line's fold over the first's. -/
theorem fold_append : ∀ (l₁ l₂ : List (HloOp τ sig Val)) (V : Valuation τ sig Val),
    after (l₁ ++ l₂) V = after l₂ (after l₁ V)
  | [], _, _ => rfl
  | op :: l₁, l₂, V => by rw [List.cons_append, after_cons, after_cons, fold_append l₁ l₂]

variable {x a b y : Ref sig .tc}

/-- An operation of three operands, given as a literal family, leaves its result buffer at its function of the three
    operands' contents, each read at its own buffer (so that a computation of the fold can go on into each operand). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The fold of a literal line at a literal buffer, computed: each operation's result at its own buffer is its
    function's value, at any other buffer what was there; a three-operand operation is read operand by operand. -/
macro "host_fold" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo.HostFold

end
-- ==== Proof.ReferenceRun.lean ====
/-
  The reference's run. The reference is host operations only: from the patch indices it computes each patch's row
  (the index modulo 16) and column (the index divided by 16, rounded down), sets the all-ones 16 by 16 patch grid of
  each frame to zero at those patches, repeats every patch fourteen times along rows and along columns to get the
  pixel mask, gives the mask to every channel and multiplies the frames by it. Here: the program is the straight line
  of those operations (the outlined remainder, floored quotient and selects written at their call sites); every weakly
  fair execution ends with each buffer at the fold of the line over the launch contents; the frames and the indices
  are never written; and the result is the frames times the broadcast of whatever the line up to the mask leaves in
  the mask's buffer.
-/
import proofs.«165895_j74818330296837_1_alg».proof.Proof.ReferenceOps
import proofs.«165895_j74818330296837_1_alg».proof.Proof.LibHostFold

noncomputable section

namespace Cert.ReferenceIdeal.HostRun

open Cert.ReferenceIdeal Cert.ReferenceIdeal.Gen Cert.ReferenceIdeal.HostOps
open Idealize.ShloMosaic Idealize.ShloMosaic.TcCoe Idealize.SL.Sem Idealize.ShloMosaic.StableHlo
open Idealize.ShloMosaic.StableHlo.HostFold

variable {F : FTy → Type} [FloatOps F]

/-- Everything up to the pixel mask, in order. -/
abbrev toMask : List (HloOp τ sig (Elt F)) :=
  sideLength ++ (remainderOps ++ (sideLengthAgain ++ (quotientOps ++ maskOps)))

/-- The whole reference, in order. -/
abbrev ops : List (HloOp τ sig (Elt F)) := toMask ++ productOps

set_option maxRecDepth 8192 in
/-- The program is that line: the outlined functions unfold at their calls and the sequencing reassociates, all by
    computation. -/
theorem main_eq (c : Dev nD) : main (F := F) c = seq ops := rfl

theorem nothing_scoped : (Finset.univ.filter fun b : Ref sig .tc => b.isScoped) = ∅ := by decide
theorem no_scoped_semaphore : (Finset.univ.filter fun sm : SemLoc sig => sm.isScoped .tc) = ∅ := by decide

/-- Every operation touches TensorCore buffers only. -/
theorem ops_within : (ops : List (HloOp τ sig (Elt F))).Forall fun op => op.bufs ⊆ tcRefs τ sig := by
  simp only [ops, toMask, sideLength, remainderOps, sideLengthAgain, quotientOps, maskOps, productOps, List.cons_append,
    List.nil_append, List.Forall, nullary_bufs_sub, unary_bufs_sub, binary_bufs_sub, ternary_bufs_sub, reshape_bufs_sub,
    nary_bufs_sub, and_self]

/-- Every operation determines its results. -/
theorem ops_determined : ∀ op ∈ (ops : List (HloOp τ sig (Elt F))), op.fresh = ∅ :=
  List.forall_iff_forall_mem.mp (by
    simp only [ops, toMask, sideLength, remainderOps, sideLengthAgain, quotientOps, maskOps, productOps, List.cons_append,
      List.nil_append, List.Forall]
    repeat' constructor)

/-- From any memory with zero counters every weakly fair execution of the reference terminates, and every final state
    has each buffer at the fold of the line over the launch contents. -/
theorem runs (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq nothing_scoped no_scoped_semaphore defs main (fun _ => ops) main_eq (fun _ => ops_within) m ρ (fun _ => ops_determined)

/-- No operation writes the frames array. -/
theorem frames_untouched (l : List (HloOp τ sig (Elt F))) (hl : l = ops ∨ l = toMask) (V : Valuation τ sig (Elt F)) :
    after l V (main_arg0 : DevRef τ sig) = V (main_arg0 : DevRef τ sig) := by
  refine after_of_forall_not_mem (b := Proc.devRef .tc main_arg0) _ _ (List.forall_iff_forall_mem.mp ?_)
  rcases hl with rfl | rfl <;>
  · simp only [ops, toMask, sideLength, remainderOps, sideLengthAgain, quotientOps, maskOps, productOps, List.cons_append,
      List.nil_append, List.Forall, nullary_writes, unary_writes, binary_writes, ternary_writes, reshape_writes, nary_writes,
      Finset.mem_singleton]
    repeat' apply And.intro
    all_goals exact devRef_ne_of_ne (by decide)

/-- No operation writes the patch indices. -/
theorem indices_untouched (V : Valuation τ sig (Elt F)) :
    after ops V (main_arg1 : DevRef τ sig) = V (main_arg1 : DevRef τ sig) := by
  refine after_of_forall_not_mem (b := Proc.devRef .tc main_arg1) _ _ (List.forall_iff_forall_mem.mp ?_)
  simp only [ops, toMask, sideLength, remainderOps, sideLengthAgain, quotientOps, maskOps, productOps, List.cons_append,
    List.nil_append, List.Forall, nullary_writes, unary_writes, binary_writes, ternary_writes, reshape_writes, nary_writes,
    Finset.mem_singleton]
  repeat' apply And.intro
  all_goals exact devRef_ne_of_ne (by decide)

/-- The result buffer ends at the frames times the mask given every channel, the mask being whatever the line up to
    it leaves in the mask's buffer. -/
theorem product_read (V : Valuation τ sig (Elt F)) :
    (after ops V (main_v33 : DevRef τ sig) : (⟨S3x256x224x224, .f32⟩ : BufTy).Contents (Elt F))
      = mulf (V (main_arg0 : DevRef τ sig) : (⟨S3x256x224x224, .f32⟩ : BufTy).Contents (Elt F))
          (broadcastInDim S3x256x224x224 ![0, 1, 2, 3] bcast_S1x256x224x224_S3x256x224x224_0_1_2_3
            (broadcastInDim S1x256x224x224 ![1, 2, 3] bcast_S256x224x224_S1x256x224x224_1_2_3
              (after toMask V (main_v30 : DevRef τ sig) : (⟨S256x224x224, .f32⟩ : BufTy).Contents (Elt F)))) := by
  have h0 : after toMask V (main_arg0 : DevRef τ sig) = V (main_arg0 : DevRef τ sig) := frames_untouched toMask (.inr rfl) V
  show after (toMask ++ productOps) V _ = _
  rw [fold_append]
  generalize after toMask V = W at h0 ⊢
  host_fold
  rw [h0]

end Cert.ReferenceIdeal.HostRun

end
-- ==== Proof.SameMask.lean ====
/-
  The two programs make the pixel mask by the same host text. From the patch indices both compute each patch's row
  (index modulo 16, sign-corrected) and column (index divided by 16, rounded down), wrap negative coordinates, join
  frame number, row and column into scatter coordinates, set the all-ones patch grid to zero there and repeat each
  patch fourteen times along rows and columns. Operation by operation and literal by literal the reference's line up
  to the mask and the kernel program's five host stretches are one computation, so with the patch indices agreeing
  the two mask arrays are equal. The comparison goes in four stages, each stage's fold computed down to what the stage
  reads: the rows from the indices, the columns from the indices, the three coordinate arrays and the all-ones grid
  from the rows and columns, and the mask from those four.
-/
import proofs.«165895_j74818330296837_1_alg».proof.Proof.Gen.KernelIdeal.Launch
import proofs.«165895_j74818330296837_1_alg».proof.Proof.ReferenceRun
import proofs.«165895_j74818330296837_1_alg».proof.Proof.LibHostFold

set_option maxRecDepth 16384

noncomputable section

namespace Cert.SameMask

open Idealize.ShloMosaic Idealize.ShloMosaic.TcCoe Idealize.SL.Sem Idealize.ShloMosaic.StableHlo
open Idealize.ShloMosaic.StableHlo.HostFold

variable {F : FTy → Type} [FloatOps F]

local notation "ValK" => Valuation Cert.KernelIdeal.τ Cert.KernelIdeal.sig (Elt F)
local notation "ValR" => Valuation Cert.ReferenceIdeal.τ Cert.ReferenceIdeal.sig (Elt F)
local notation "DevK" => DevRef Cert.KernelIdeal.τ Cert.KernelIdeal.sig
local notation "DevR" => DevRef Cert.ReferenceIdeal.τ Cert.ReferenceIdeal.sig

/-! ## The stages, in each program -/

/-- The patches' rows: the side length, then the remainder. -/
abbrev rowsK : List (HloOp Cert.KernelIdeal.τ Cert.KernelIdeal.sig (Elt F)) := Cert.KernelIdeal.Gen.hostOps0 ++ Cert.KernelIdeal.Gen.hostOps0_1
abbrev rowsR : List (HloOp Cert.ReferenceIdeal.τ Cert.ReferenceIdeal.sig (Elt F)) := Cert.ReferenceIdeal.HostOps.sideLength ++ Cert.ReferenceIdeal.HostOps.remainderOps
/-- The patches' columns: the side length again, then the floored quotient. -/
abbrev colsK : List (HloOp Cert.KernelIdeal.τ Cert.KernelIdeal.sig (Elt F)) := Cert.KernelIdeal.Gen.hostOps0_2 ++ Cert.KernelIdeal.Gen.hostOps0_3
abbrev colsR : List (HloOp Cert.ReferenceIdeal.τ Cert.ReferenceIdeal.sig (Elt F)) := Cert.ReferenceIdeal.HostOps.sideLengthAgain ++ Cert.ReferenceIdeal.HostOps.quotientOps
/-- The frame numbers, the all-ones grid, the wrapped rows and columns, each as a coordinate array. -/
abbrev coordsK : List (HloOp Cert.KernelIdeal.τ Cert.KernelIdeal.sig (Elt F)) := (Cert.KernelIdeal.Gen.hostOps0_4).take 29
abbrev coordsR : List (HloOp Cert.ReferenceIdeal.τ Cert.ReferenceIdeal.sig (Elt F)) := (Cert.ReferenceIdeal.HostOps.maskOps).take 29
/-- The coordinates joined, zero scattered at them, the patches repeated to pixels. -/
abbrev expandK : List (HloOp Cert.KernelIdeal.τ Cert.KernelIdeal.sig (Elt F)) := (Cert.KernelIdeal.Gen.hostOps0_4).drop 29
abbrev expandR : List (HloOp Cert.ReferenceIdeal.τ Cert.ReferenceIdeal.sig (Elt F)) := (Cert.ReferenceIdeal.HostOps.maskOps).drop 29

/-- The kernel program's host stretches are the four stages in a row. -/
theorem stagesK : (List.flatten [Cert.KernelIdeal.Gen.hostOps0, Cert.KernelIdeal.Gen.hostOps0_1, Cert.KernelIdeal.Gen.hostOps0_2, Cert.KernelIdeal.Gen.hostOps0_3, Cert.KernelIdeal.Gen.hostOps0_4]
      : List (HloOp Cert.KernelIdeal.τ Cert.KernelIdeal.sig (Elt F)))
    = rowsK ++ (colsK ++ (coordsK ++ expandK)) := by
  rw [show (coordsK ++ expandK : List (HloOp Cert.KernelIdeal.τ Cert.KernelIdeal.sig (Elt F))) = Cert.KernelIdeal.Gen.hostOps0_4 from List.take_append_drop 29 _]
  simp only [List.flatten_cons, List.flatten_nil, List.append_nil, List.append_assoc]

/-- So is the reference's line up to the mask. -/
theorem stagesR : (Cert.ReferenceIdeal.HostRun.toMask : List (HloOp Cert.ReferenceIdeal.τ Cert.ReferenceIdeal.sig (Elt F))) = rowsR ++ (colsR ++ (coordsR ++ expandR)) := by
  rw [show (coordsR ++ expandR : List (HloOp Cert.ReferenceIdeal.τ Cert.ReferenceIdeal.sig (Elt F))) = Cert.ReferenceIdeal.HostOps.maskOps from List.take_append_drop 29 _]
  simp only [Cert.ReferenceIdeal.HostRun.toMask, List.append_assoc]

/-! ## Stage by stage the two programs agree -/

set_option maxHeartbeats 2000000 in
/-- The rows: from agreeing indices, equal row arrays. -/
theorem same_rows (VK : ValK) (VR : ValR)
    (h : (VR (Cert.ReferenceIdeal.main_arg1 : DevR) : (⟨Cert.KernelIdeal.S256x128, .i32⟩ : BufTy).Contents (Elt F)) = VK (Cert.KernelIdeal.main_arg1 : DevK)) :
    (after rowsR VR (Cert.ReferenceIdeal.main_v0 : DevR) : (⟨Cert.KernelIdeal.S256x128, .i32⟩ : BufTy).Contents (Elt F)) = after rowsK VK (Cert.KernelIdeal.main_v0 : DevK) := by
  simp only [rowsK, rowsR, Cert.KernelIdeal.Gen.hostOps0, Cert.KernelIdeal.Gen.hostOps0_1, Cert.ReferenceIdeal.HostOps.sideLength, Cert.ReferenceIdeal.HostOps.remainderOps,
    List.cons_append, List.nil_append]
  host_fold
  rw [h]

set_option maxHeartbeats 2000000 in
/-- The columns likewise. -/
theorem same_cols (VK : ValK) (VR : ValR)
    (h : (VR (Cert.ReferenceIdeal.main_arg1 : DevR) : (⟨Cert.KernelIdeal.S256x128, .i32⟩ : BufTy).Contents (Elt F)) = VK (Cert.KernelIdeal.main_arg1 : DevK)) :
    (after colsR VR (Cert.ReferenceIdeal.main_v1 : DevR) : (⟨Cert.KernelIdeal.S256x128, .i32⟩ : BufTy).Contents (Elt F)) = after colsK VK (Cert.KernelIdeal.main_v1 : DevK) := by
  simp only [colsK, colsR, Cert.KernelIdeal.Gen.hostOps0_2, Cert.KernelIdeal.Gen.hostOps0_3, Cert.ReferenceIdeal.HostOps.sideLengthAgain, Cert.ReferenceIdeal.HostOps.quotientOps,
    List.cons_append, List.nil_append]
  host_fold
  rw [h]

set_option maxHeartbeats 4000000 in
/-- The coordinate arrays and the all-ones grid: from equal rows and columns, equal frame, row and column coordinates;
    the grid is a constant. -/
theorem same_coords (WK : ValK) (WR : ValR)
    (h0 : (WR (Cert.ReferenceIdeal.main_v0 : DevR) : (⟨Cert.KernelIdeal.S256x128, .i32⟩ : BufTy).Contents (Elt F)) = WK (Cert.KernelIdeal.main_v0 : DevK))
    (h1 : (WR (Cert.ReferenceIdeal.main_v1 : DevR) : (⟨Cert.KernelIdeal.S256x128, .i32⟩ : BufTy).Contents (Elt F)) = WK (Cert.KernelIdeal.main_v1 : DevK)) :
    ((after coordsR WR (Cert.ReferenceIdeal.main_v21 : DevR) : (⟨Cert.KernelIdeal.S256x128x1, .i32⟩ : BufTy).Contents (Elt F)) = after coordsK WK (Cert.KernelIdeal.main_v21 : DevK))
    ∧ ((after coordsR WR (Cert.ReferenceIdeal.main_v22 : DevR) : (⟨Cert.KernelIdeal.S256x128x1, .i32⟩ : BufTy).Contents (Elt F)) = after coordsK WK (Cert.KernelIdeal.main_v22 : DevK))
    ∧ ((after coordsR WR (Cert.ReferenceIdeal.main_v23 : DevR) : (⟨Cert.KernelIdeal.S256x128x1, .i32⟩ : BufTy).Contents (Elt F)) = after coordsK WK (Cert.KernelIdeal.main_v23 : DevK))
    ∧ ((after coordsR WR (Cert.ReferenceIdeal.main_v4 : DevR) : (⟨Cert.KernelIdeal.S256x16x16, .f32⟩ : BufTy).Contents (Elt F)) = after coordsK WK (Cert.KernelIdeal.main_v4 : DevK)) := by
  simp only [coordsK, coordsR, Cert.KernelIdeal.Gen.hostOps0_4, Cert.ReferenceIdeal.HostOps.maskOps, List.take_succ_cons, List.take_zero]
  refine ⟨?_, ?_, ?_, ?_⟩
  · host_fold
  · host_fold; rw [h0]
  · host_fold; rw [h1]
  · host_fold

set_option maxHeartbeats 2000000 in
/-- The mask from the three coordinate arrays and the grid. -/
theorem same_expansion (XK : ValK) (XR : ValR)
    (h21 : (XR (Cert.ReferenceIdeal.main_v21 : DevR) : (⟨Cert.KernelIdeal.S256x128x1, .i32⟩ : BufTy).Contents (Elt F)) = XK (Cert.KernelIdeal.main_v21 : DevK))
    (h22 : (XR (Cert.ReferenceIdeal.main_v22 : DevR) : (⟨Cert.KernelIdeal.S256x128x1, .i32⟩ : BufTy).Contents (Elt F)) = XK (Cert.KernelIdeal.main_v22 : DevK))
    (h23 : (XR (Cert.ReferenceIdeal.main_v23 : DevR) : (⟨Cert.KernelIdeal.S256x128x1, .i32⟩ : BufTy).Contents (Elt F)) = XK (Cert.KernelIdeal.main_v23 : DevK))
    (h4 : (XR (Cert.ReferenceIdeal.main_v4 : DevR) : (⟨Cert.KernelIdeal.S256x16x16, .f32⟩ : BufTy).Contents (Elt F)) = XK (Cert.KernelIdeal.main_v4 : DevK)) :
    (after expandR XR (Cert.ReferenceIdeal.main_v30 : DevR) : (⟨Cert.KernelIdeal.S256x224x224, .f32⟩ : BufTy).Contents (Elt F)) = after expandK XK (Cert.KernelIdeal.main_v30 : DevK) := by
  simp only [expandK, expandR, Cert.KernelIdeal.Gen.hostOps0_4, Cert.ReferenceIdeal.HostOps.maskOps, List.drop_succ_cons, List.drop_zero]
  host_fold
  rw [h21, h22, h23, h4]
  rfl

/-! ## What a stage leaves alone -/

/-- The rows' stage does not write the indices. -/
theorem rows_keep_indicesK (V : ValK) : after rowsK V (Cert.KernelIdeal.main_arg1 : DevK) = V (Cert.KernelIdeal.main_arg1 : DevK) := by
  refine after_of_forall_not_mem (b := Proc.devRef .tc Cert.KernelIdeal.main_arg1) _ _ (List.forall_iff_forall_mem.mp ?_)
  simp only [rowsK, Cert.KernelIdeal.Gen.hostOps0, Cert.KernelIdeal.Gen.hostOps0_1, List.cons_append, List.nil_append, List.Forall, nullary_writes,
    unary_writes, binary_writes, ternary_writes, Finset.mem_singleton]
  repeat' apply And.intro
  all_goals exact devRef_ne_of_ne (by decide)
theorem rows_keep_indicesR (V : ValR) : after rowsR V (Cert.ReferenceIdeal.main_arg1 : DevR) = V (Cert.ReferenceIdeal.main_arg1 : DevR) := by
  refine after_of_forall_not_mem (b := Proc.devRef .tc Cert.ReferenceIdeal.main_arg1) _ _ (List.forall_iff_forall_mem.mp ?_)
  simp only [rowsR, Cert.ReferenceIdeal.HostOps.sideLength, Cert.ReferenceIdeal.HostOps.remainderOps, List.cons_append, List.nil_append, List.Forall, nullary_writes,
    unary_writes, binary_writes, ternary_writes, Finset.mem_singleton]
  repeat' apply And.intro
  all_goals exact devRef_ne_of_ne (by decide)

/-- The columns' stage does not write the rows. -/
theorem cols_keep_rowsK (V : ValK) : after colsK V (Cert.KernelIdeal.main_v0 : DevK) = V (Cert.KernelIdeal.main_v0 : DevK) := by
  refine after_of_forall_not_mem (b := Proc.devRef .tc Cert.KernelIdeal.main_v0) _ _ (List.forall_iff_forall_mem.mp ?_)
  simp only [colsK, Cert.KernelIdeal.Gen.hostOps0_2, Cert.KernelIdeal.Gen.hostOps0_3, List.cons_append, List.nil_append, List.Forall, nullary_writes,
    unary_writes, binary_writes, ternary_writes, Finset.mem_singleton]
  repeat' apply And.intro
  all_goals exact devRef_ne_of_ne (by decide)
theorem cols_keep_rowsR (V : ValR) : after colsR V (Cert.ReferenceIdeal.main_v0 : DevR) = V (Cert.ReferenceIdeal.main_v0 : DevR) := by
  refine after_of_forall_not_mem (b := Proc.devRef .tc Cert.ReferenceIdeal.main_v0) _ _ (List.forall_iff_forall_mem.mp ?_)
  simp only [colsR, Cert.ReferenceIdeal.HostOps.sideLengthAgain, Cert.ReferenceIdeal.HostOps.quotientOps, List.cons_append, List.nil_append, List.Forall, nullary_writes,
    unary_writes, binary_writes, ternary_writes, Finset.mem_singleton]
  repeat' apply And.intro
  all_goals exact devRef_ne_of_ne (by decide)

/-! ## The masks agree -/

/-- The fold over four lines in a row, line by line. -/
theorem fold_four {τ : Topo} {sig : RefSig} {Val : EltTy → Type} (a b c d : List (HloOp τ sig Val)) (V : Valuation τ sig Val) :
    after (a ++ (b ++ (c ++ d))) V = after d (after c (after b (after a V))) := by
  rw [fold_append, fold_append, fold_append]

/-- With the patch indices agreeing, the reference's line up to the mask leaves in its mask buffer what the kernel
    program's host stretches leave in theirs. -/
theorem same_mask (VK : ValK) (VR : ValR)
    (h : (VR (Cert.ReferenceIdeal.main_arg1 : DevR) : (⟨Cert.KernelIdeal.S256x128, .i32⟩ : BufTy).Contents (Elt F)) = VK (Cert.KernelIdeal.main_arg1 : DevK)) :
    (after Cert.ReferenceIdeal.HostRun.toMask VR (Cert.ReferenceIdeal.main_v30 : DevR) : (⟨Cert.KernelIdeal.S256x224x224, .f32⟩ : BufTy).Contents (Elt F))
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4]) VK
          (Cert.KernelIdeal.main_v30 : DevK) := by
  have eR := (congrArg (fun l => after l VR) (stagesR (F := F))).trans (fold_four _ _ _ _ VR)
  have eK := (congrArg (fun l => after l VK) (stagesK (F := F))).trans (fold_four _ _ _ _ VK)
  refine (congrFun eR (Cert.ReferenceIdeal.main_v30 : DevR)).trans (Eq.trans ?_ (congrFun eK (Cert.KernelIdeal.main_v30 : DevK)).symm)
  have hrow : (after colsR (after rowsR VR) (Cert.ReferenceIdeal.main_v0 : DevR) : (⟨Cert.KernelIdeal.S256x128, .i32⟩ : BufTy).Contents (Elt F))
      = after colsK (after rowsK VK) (Cert.KernelIdeal.main_v0 : DevK) := by
    exact (cols_keep_rowsR _).trans ((same_rows VK VR h).trans (cols_keep_rowsK _).symm)
  have hcol : (after colsR (after rowsR VR) (Cert.ReferenceIdeal.main_v1 : DevR) : (⟨Cert.KernelIdeal.S256x128, .i32⟩ : BufTy).Contents (Elt F))
      = after colsK (after rowsK VK) (Cert.KernelIdeal.main_v1 : DevK) :=
    same_cols _ _ ((rows_keep_indicesR _).trans (h.trans (rows_keep_indicesK _).symm))
  obtain ⟨c21, c22, c23, c4⟩ := same_coords _ _ hrow hcol
  exact same_expansion _ _ c21 c22 c23 c4

end Cert.SameMask

end
-- ==== Proof.lean ====
/-
  The certificate of the masked-frames kernel against its reference.
  Both programs build the pixel mask from the patch indices by the same host operations; the reference then gives the
  mask to the three channels and multiplies the frames by it in one operation, while the kernel program does the
  multiplication in a pipelined region, eight frames at a time, the mask block broadcast along the channel axis inside
  the body. Index by index both results are the frame's entry times the mask's entry under it: the same product, so no
  property of the numbers is used and the precondition is never opened. The three frames: the two kernel programs run
  through their host stretches and the region's thirty-two points and never write an argument; the reference is a
  straight line of host operations none of which writes an argument. The idealization rewrote nothing.
-/
import proofs.«165895_j74818330296837_1_alg».proof.Defs
import proofs.«165895_j74818330296837_1_alg».proof.Proof.Gen.Kernel
import proofs.«165895_j74818330296837_1_alg».proof.Proof.Gen.KernelIdeal
import proofs.«165895_j74818330296837_1_alg».proof.Proof.Gen.ReferenceIdeal
import proofs.«165895_j74818330296837_1_alg».proof.Proof.Gen.Pre_finite_inputs
import proofs.«165895_j74818330296837_1_alg».proof.Proof.WordRegion
import proofs.«165895_j74818330296837_1_alg».proof.Proof.IdealRegion
import proofs.«165895_j74818330296837_1_alg».proof.Proof.KernelProduct
import proofs.«165895_j74818330296837_1_alg».proof.Proof.ReferenceRun
import proofs.«165895_j74818330296837_1_alg».proof.Proof.SameMask
import proofs.«165895_j74818330296837_1_alg».proof.Proof.MaskedFrames

noncomputable section

namespace Cert.Proof

open Idealize.ShloMosaic Idealize.ShloMosaic.TcCoe Idealize.SL.Sem

/-- The word-level kernel program runs to its end and leaves the frames and the patch indices unchanged. -/
theorem frame_word : Cert.frame_Kernel := fun m ρ _ => Cert.Kernel.Region.frame m ρ

/-- So does the idealized kernel program. -/
theorem frame_ideal : Cert.frame_KernelIdeal := fun m ρ _ => Cert.KernelIdeal.Region.frame m ρ

/-- The reference runs to its end, and none of its operations writes an argument. -/
theorem frame_reference : Cert.frame_ReferenceIdeal := fun m ρ _ =>
  (θ_run Cert.ReferenceIdeal.defs _ _).mono
    (fun _ h c => ⟨(h c Cert.ReferenceIdeal.main_arg0).trans (Cert.ReferenceIdeal.HostRun.frames_untouched _ (.inl rfl) _),
      (h c Cert.ReferenceIdeal.main_arg1).trans (Cert.ReferenceIdeal.HostRun.indices_untouched _)⟩)
    (Cert.ReferenceIdeal.HostRun.runs (F := Ideal) m ρ)

/-- From memories agreeing on the arguments both programs end with the frames masked by the one mask array: the kernel
    program block by block, the reference in one product over the mask stretched to the channels. -/
theorem algebraic : Cert.algebraic_KernelIdeal_ReferenceIdeal := by
  intro m ρ m' ρ' _ hagree
  refine ⟨fun c => Cert.MaskedFrames.masked (m ((c.tc : Thread Cert.KernelIdeal.nD Cert.KernelIdeal.τ).loc Cert.KernelIdeal.main_arg0))
      (Cert.KernelIdeal.Region.atEntry m c Cert.KernelIdeal.main_v30), Cert.KernelIdeal.Product.computes (F := Ideal) m ρ, ?_⟩
  refine (θ_run Cert.ReferenceIdeal.defs _ _).mono (fun _ h c => ⟨?_,
      (h c Cert.ReferenceIdeal.main_arg0).trans (Cert.ReferenceIdeal.HostRun.frames_untouched _ (.inl rfl) _),
      (h c Cert.ReferenceIdeal.main_arg1).trans (Cert.ReferenceIdeal.HostRun.indices_untouched _)⟩)
    (Cert.ReferenceIdeal.HostRun.runs (F := Ideal) m' ρ')
  refine (h c Cert.ReferenceIdeal.main_v33).trans ?_
  refine (Cert.ReferenceIdeal.HostRun.product_read _).trans ?_
  refine (Cert.MaskedFrames.stretched_product _ _ _ _).trans ?_
  exact congrArg₂ Cert.MaskedFrames.masked (hagree c).1 (Cert.SameMask.same_mask (fun b => m (c, b)) _ (hagree c).2)

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
